-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S32x128 : Shape := ⟨2, ![32, 128]⟩
abbrev S30522x768 : Shape := ⟨2, ![30522, 768]⟩
abbrev S6x768 : Shape := ⟨2, ![6, 768]⟩
abbrev S3x768 : Shape := ⟨2, ![3, 768]⟩
abbrev S2x768 : Shape := ⟨2, ![2, 768]⟩
abbrev S128x768 : Shape := ⟨2, ![128, 768]⟩
abbrev S512x768 : Shape := ⟨2, ![512, 768]⟩
abbrev S768 : Shape := ⟨1, ![768]⟩
abbrev S768x768 : Shape := ⟨2, ![768, 768]⟩
abbrev S_ : Shape := ⟨0, ![]⟩

class Facts : Prop where
  bcast_S_S30522x768 : S_.BroadcastsInDim S30522x768 (![] : Fin 0 → Fin S30522x768.rank)
  reducesTo_S30522x768_S_d0_1 : S30522x768.ReducesTo [0, 1] S_
  h_S_ : 0 < S_.numel
  bcast_S_S6x768 : S_.BroadcastsInDim S6x768 (![] : Fin 0 → Fin S6x768.rank)
  reducesTo_S6x768_S_d0_1 : S6x768.ReducesTo [0, 1] S_
  bcast_S_S3x768 : S_.BroadcastsInDim S3x768 (![] : Fin 0 → Fin S3x768.rank)
  reducesTo_S3x768_S_d0_1 : S3x768.ReducesTo [0, 1] S_
  bcast_S_S2x768 : S_.BroadcastsInDim S2x768 (![] : Fin 0 → Fin S2x768.rank)
  reducesTo_S2x768_S_d0_1 : S2x768.ReducesTo [0, 1] S_
  bcast_S_S128x768 : S_.BroadcastsInDim S128x768 (![] : Fin 0 → Fin S128x768.rank)
  reducesTo_S128x768_S_d0_1 : S128x768.ReducesTo [0, 1] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_
  bcast_S_S768x768 : S_.BroadcastsInDim S768x768 (![] : Fin 0 → Fin S768x768.rank)
  reducesTo_S768x768_S_d0_1 : S768x768.ReducesTo [0, 1] S_
  bcast_S_S32x128 : S_.BroadcastsInDim S32x128 (![] : Fin 0 → Fin S32x128.rank)
  reducesTo_S32x128_S_d0_1 : S32x128.ReducesTo [0, 1] S_

variable [Facts]

def fn_part4 {F : FTy → Type} [FloatOps F] (main_arg5 : IVec S32x128 32) (main_arg6 : IVec S32x128 32) (main_v62 : IVec S_ 1) (main_v67 : IVec S32x128 1) : IVec S_ 1 :=
  let main_c_26 : IVec S_ 1 := constantI S_ 1 1#1
  let main_v68 : IVec S_ 1 := (fun x v => Host.reduce IntOp.andi x v reducesTo_S32x128_S_d0_1 h_S_) main_v67 main_c_26
  let main_v69 : IVec S_ 1 := andi main_v62 main_v68
  let main_c_27 : IVec S_ 32 := constantI S_ 32 0#32
  let main_v70 : IVec S32x128 32 := broadcastInDim S32x128 ![] bcast_S_S32x128 main_c_27
  let main_v71 : IVec S32x128 1 := cmpi .sge main_arg5 main_v70
  let main_c_28 : IVec S_ 32 := constantI S_ 32 128#32
  let main_v72 : IVec S32x128 32 := broadcastInDim S32x128 ![] bcast_S_S32x128 main_c_28
  let main_v73 : IVec S32x128 1 := cmpi .slt main_arg5 main_v72
  let main_v74 : IVec S32x128 1 := andi main_v71 main_v73
  let main_c_29 : IVec S_ 1 := constantI S_ 1 1#1
  let main_v75 : IVec S_ 1 := (fun x v => Host.reduce IntOp.andi x v reducesTo_S32x128_S_d0_1 h_S_) main_v74 main_c_29
  let main_v76 : IVec S_ 1 := andi main_v69 main_v75
  let main_c_30 : IVec S_ 32 := constantI S_ 32 0#32
  let main_v77 : IVec S32x128 32 := broadcastInDim S32x128 ![] bcast_S_S32x128 main_c_30
  let main_v78 : IVec S32x128 1 := cmpi .sge main_arg6 main_v77
  let main_c_31 : IVec S_ 32 := constantI S_ 32 512#32
  let main_v79 : IVec S32x128 32 := broadcastInDim S32x128 ![] bcast_S_S32x128 main_c_31
  let main_v80 : IVec S32x128 1 := cmpi .slt main_arg6 main_v79
  let main_v81 : IVec S32x128 1 := andi main_v78 main_v80
  let main_c_32 : IVec S_ 1 := constantI S_ 1 1#1
  let main_v82 : IVec S_ 1 := (fun x v => Host.reduce IntOp.andi x v reducesTo_S32x128_S_d0_1 h_S_) main_v81 main_c_32
  let main_v83 : IVec S_ 1 := andi main_v76 main_v82
  main_v83

def fn_part3 {F : FTy → Type} [FloatOps F] (main_arg2 : IVec S32x128 32) (main_arg3 : IVec S32x128 32) (main_arg4 : IVec S32x128 32) (main_arg5 : IVec S32x128 32) (main_arg6 : IVec S32x128 32) (main_v48 : IVec S_ 1) (main_v50 : IVec S32x128 1) : IVec S_ 1 :=
  let main_c_19 : IVec S_ 32 := constantI S_ 32 6#32
  let main_v51 : IVec S32x128 32 := broadcastInDim S32x128 ![] bcast_S_S32x128 main_c_19
  let main_v52 : IVec S32x128 1 := cmpi .slt main_arg2 main_v51
  let main_v53 : IVec S32x128 1 := andi main_v50 main_v52
  let main_c_20 : IVec S_ 1 := constantI S_ 1 1#1
  let main_v54 : IVec S_ 1 := (fun x v => Host.reduce IntOp.andi x v reducesTo_S32x128_S_d0_1 h_S_) main_v53 main_c_20
  let main_v55 : IVec S_ 1 := andi main_v48 main_v54
  let main_c_21 : IVec S_ 32 := constantI S_ 32 0#32
  let main_v56 : IVec S32x128 32 := broadcastInDim S32x128 ![] bcast_S_S32x128 main_c_21
  let main_v57 : IVec S32x128 1 := cmpi .sge main_arg3 main_v56
  let main_c_22 : IVec S_ 32 := constantI S_ 32 3#32
  let main_v58 : IVec S32x128 32 := broadcastInDim S32x128 ![] bcast_S_S32x128 main_c_22
  let main_v59 : IVec S32x128 1 := cmpi .slt main_arg3 main_v58
  let main_v60 : IVec S32x128 1 := andi main_v57 main_v59
  let main_c_23 : IVec S_ 1 := constantI S_ 1 1#1
  let main_v61 : IVec S_ 1 := (fun x v => Host.reduce IntOp.andi x v reducesTo_S32x128_S_d0_1 h_S_) main_v60 main_c_23
  let main_v62 : IVec S_ 1 := andi main_v55 main_v61
  let main_c_24 : IVec S_ 32 := constantI S_ 32 0#32
  let main_v63 : IVec S32x128 32 := broadcastInDim S32x128 ![] bcast_S_S32x128 main_c_24
  let main_v64 : IVec S32x128 1 := cmpi .sge main_arg4 main_v63
  let main_c_25 : IVec S_ 32 := constantI S_ 32 2#32
  let main_v65 : IVec S32x128 32 := broadcastInDim S32x128 ![] bcast_S_S32x128 main_c_25
  let main_v66 : IVec S32x128 1 := cmpi .slt main_arg4 main_v65
  let main_v67 : IVec S32x128 1 := andi main_v64 main_v66
  fn_part4 (F := F) main_arg5 main_arg6 main_v62 main_v67

def fn_part2 {F : FTy → Type} [FloatOps F] (main_arg2 : IVec S32x128 32) (main_arg3 : IVec S32x128 32) (main_arg4 : IVec S32x128 32) (main_arg5 : IVec S32x128 32) (main_arg6 : IVec S32x128 32) (main_arg14 : FVec F S768 .f32) (main_arg15 : FVec F S768x768 .f32) (main_arg16 : FVec F S768 .f32) (main_v33 : IVec S_ 1) : IVec S_ 1 :=
  let main_v34 : FVec F S768 .f32 := Host.absf main_arg14
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x768 .f32 := Host.absf main_arg15
  let main_cst_14 : FVec F S_ .f32 := constant S_ .f32 0x7F800000#32
  let main_v40 : FVec F S768x768 .f32 := broadcastInDim S768x768 ![] bcast_S_S768x768 main_cst_14
  let main_v41 : IVec S768x768 1 := cmpf .olt main_v39 main_v40
  let main_c_15 : IVec S_ 1 := constantI S_ 1 1#1
  let main_v42 : IVec S_ 1 := (fun x v => Host.reduce IntOp.andi x v reducesTo_S768x768_S_d0_1 h_S_) main_v41 main_c_15
  let main_v43 : IVec S_ 1 := andi main_v38 main_v42
  let main_v44 : FVec F S768 .f32 := Host.absf main_arg16
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_c_18 : IVec S_ 32 := constantI S_ 32 0#32
  let main_v49 : IVec S32x128 32 := broadcastInDim S32x128 ![] bcast_S_S32x128 main_c_18
  let main_v50 : IVec S32x128 1 := cmpi .sge main_arg2 main_v49
  fn_part3 (F := F) main_arg2 main_arg3 main_arg4 main_arg5 main_arg6 main_v48 main_v50

def fn_part1 {F : FTy → Type} [FloatOps F] (main_arg2 : IVec S32x128 32) (main_arg3 : IVec S32x128 32) (main_arg4 : IVec S32x128 32) (main_arg5 : IVec S32x128 32) (main_arg6 : IVec S32x128 32) (main_arg11 : FVec F S128x768 .f32) (main_arg12 : FVec F S512x768 .f32) (main_arg13 : FVec F S768 .f32) (main_arg14 : FVec F S768 .f32) (main_arg15 : FVec F S768x768 .f32) (main_arg16 : FVec F S768 .f32) (main_v13 : IVec S_ 1) (main_v16 : IVec S2x768 1) : IVec S_ 1 :=
  let main_c_5 : IVec S_ 1 := constantI S_ 1 1#1
  let main_v17 : IVec S_ 1 := (fun x v => Host.reduce IntOp.andi x v reducesTo_S2x768_S_d0_1 h_S_) main_v16 main_c_5
  let main_v18 : IVec S_ 1 := andi main_v13 main_v17
  let main_v19 : FVec F S128x768 .f32 := Host.absf main_arg11
  let main_cst_6 : FVec F S_ .f32 := constant S_ .f32 0x7F800000#32
  let main_v20 : FVec F S128x768 .f32 := broadcastInDim S128x768 ![] bcast_S_S128x768 main_cst_6
  let main_v21 : IVec S128x768 1 := cmpf .olt main_v19 main_v20
  let main_c_7 : IVec S_ 1 := constantI S_ 1 1#1
  let main_v22 : IVec S_ 1 := (fun x v => Host.reduce IntOp.andi x v reducesTo_S128x768_S_d0_1 h_S_) main_v21 main_c_7
  let main_v23 : IVec S_ 1 := andi main_v18 main_v22
  let main_v24 : FVec F S512x768 .f32 := Host.absf main_arg12
  let main_cst_8 : FVec F S_ .f32 := constant S_ .f32 0x7F800000#32
  let main_v25 : FVec F S512x768 .f32 := broadcastInDim S512x768 ![] bcast_S_S512x768 main_cst_8
  let main_v26 : IVec S512x768 1 := cmpf .olt main_v24 main_v25
  let main_c_9 : IVec S_ 1 := constantI S_ 1 1#1
  let main_v27 : IVec S_ 1 := (fun x v => Host.reduce IntOp.andi x v reducesTo_S512x768_S_d0_1 h_S_) main_v26 main_c_9
  let main_v28 : IVec S_ 1 := andi main_v23 main_v27
  let main_v29 : FVec F S768 .f32 := Host.absf main_arg13
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg2 main_arg3 main_arg4 main_arg5 main_arg6 main_arg14 main_arg15 main_arg16 main_v33

def fn {F : FTy → Type} [FloatOps F] (main_arg0 : IVec S65536 32) (main_arg1 : IVec S65536 32) (main_arg2 : IVec S32x128 32) (main_arg3 : IVec S32x128 32) (main_arg4 : IVec S32x128 32) (main_arg5 : IVec S32x128 32) (main_arg6 : IVec S32x128 32) (main_arg7 : FVec F S30522x768 .f32) (main_arg8 : FVec F S6x768 .f32) (main_arg9 : FVec F S3x768 .f32) (main_arg10 : FVec F S2x768 .f32) (main_arg11 : FVec F S128x768 .f32) (main_arg12 : FVec F S512x768 .f32) (main_arg13 : FVec F S768 .f32) (main_arg14 : FVec F S768 .f32) (main_arg15 : FVec F S768x768 .f32) (main_arg16 : FVec F S768 .f32) : IVec S_ 1 :=
  let main_v0 : FVec F S30522x768 .f32 := Host.absf main_arg7
  let main_cst : FVec F S_ .f32 := constant S_ .f32 0x7F800000#32
  let main_v1 : FVec F S30522x768 .f32 := broadcastInDim S30522x768 ![] bcast_S_S30522x768 main_cst
  let main_v2 : IVec S30522x768 1 := cmpf .olt main_v0 main_v1
  let main_c : IVec S_ 1 := constantI S_ 1 1#1
  let main_v3 : IVec S_ 1 := (fun x v => Host.reduce IntOp.andi x v reducesTo_S30522x768_S_d0_1 h_S_) main_v2 main_c
  let main_v4 : FVec F S6x768 .f32 := Host.absf main_arg8
  let main_cst_0 : FVec F S_ .f32 := constant S_ .f32 0x7F800000#32
  let main_v5 : FVec F S6x768 .f32 := broadcastInDim S6x768 ![] bcast_S_S6x768 main_cst_0
  let main_v6 : IVec S6x768 1 := cmpf .olt main_v4 main_v5
  let main_c_1 : IVec S_ 1 := constantI S_ 1 1#1
  let main_v7 : IVec S_ 1 := (fun x v => Host.reduce IntOp.andi x v reducesTo_S6x768_S_d0_1 h_S_) main_v6 main_c_1
  let main_v8 : IVec S_ 1 := andi main_v3 main_v7
  let main_v9 : FVec F S3x768 .f32 := Host.absf main_arg9
  let main_cst_2 : FVec F S_ .f32 := constant S_ .f32 0x7F800000#32
  let main_v10 : FVec F S3x768 .f32 := broadcastInDim S3x768 ![] bcast_S_S3x768 main_cst_2
  let main_v11 : IVec S3x768 1 := cmpf .olt main_v9 main_v10
  let main_c_3 : IVec S_ 1 := constantI S_ 1 1#1
  let main_v12 : IVec S_ 1 := (fun x v => Host.reduce IntOp.andi x v reducesTo_S3x768_S_d0_1 h_S_) main_v11 main_c_3
  let main_v13 : IVec S_ 1 := andi main_v8 main_v12
  let main_v14 : FVec F S2x768 .f32 := Host.absf main_arg10
  let main_cst_4 : FVec F S_ .f32 := constant S_ .f32 0x7F800000#32
  let main_v15 : FVec F S2x768 .f32 := broadcastInDim S2x768 ![] bcast_S_S2x768 main_cst_4
  let main_v16 : IVec S2x768 1 := cmpf .olt main_v14 main_v15
  fn_part1 (F := F) main_arg2 main_arg3 main_arg4 main_arg5 main_arg6 main_arg11 main_arg12 main_arg13 main_arg14 main_arg15 main_arg16 main_v13 main_v16
-- ==== Kernel.lean ====
abbrev S65536 : Shape := ⟨1, ![65536]⟩
abbrev S32x128 : Shape := ⟨2, ![32, 128]⟩
abbrev S30522x768 : Shape := ⟨2, ![30522, 768]⟩
abbrev S6x768 : Shape := ⟨2, ![6, 768]⟩
abbrev S3x768 : Shape := ⟨2, ![3, 768]⟩
abbrev S2x768 : Shape := ⟨2, ![2, 768]⟩
abbrev S128x768 : Shape := ⟨2, ![128, 768]⟩
abbrev S512x768 : Shape := ⟨2, ![512, 768]⟩
abbrev S768 : Shape := ⟨1, ![768]⟩
abbrev S768x768 : Shape := ⟨2, ![768, 768]⟩
abbrev S_ : Shape := ⟨0, ![]⟩
abbrev S65536x1 : Shape := ⟨2, ![65536, 1]⟩
abbrev S65536x768 : Shape := ⟨2, ![65536, 768]⟩
abbrev S4096x768 : Shape := ⟨2, ![4096, 768]⟩
abbrev S4096 : Shape := ⟨1, ![4096]⟩
abbrev S4096x1 : Shape := ⟨2, ![4096, 1]⟩
abbrev S512 : Shape := ⟨1, ![512]⟩
abbrev S512x1 : Shape := ⟨2, ![512, 1]⟩
abbrev S512x6 : Shape := ⟨2, ![512, 6]⟩
abbrev S512x3 : Shape := ⟨2, ![512, 3]⟩
abbrev S512x2 : Shape := ⟨2, ![512, 2]⟩
abbrev S512x128 : Shape := ⟨2, ![512, 128]⟩
abbrev S512x512 : Shape := ⟨2, ![512, 512]⟩
abbrev S1x768 : Shape := ⟨2, ![1, 768]⟩
abbrev S32x128x768 : Shape := ⟨3, ![32, 128, 768]⟩

abbrev nBuf : Space → Nat
  | .hbm => 51
  | .vmem => 23
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S32x128, .i32⟩
  | .hbm, ⟨3, _⟩ => ⟨S32x128, .i32⟩
  | .hbm, ⟨4, _⟩ => ⟨S32x128, .i32⟩
  | .hbm, ⟨5, _⟩ => ⟨S32x128, .i32⟩
  | .hbm, ⟨6, _⟩ => ⟨S32x128, .i32⟩
  | .hbm, ⟨7, _⟩ => ⟨S30522x768, .f32⟩
  | .hbm, ⟨8, _⟩ => ⟨S6x768, .f32⟩
  | .hbm, ⟨9, _⟩ => ⟨S3x768, .f32⟩
  | .hbm, ⟨10, _⟩ => ⟨S2x768, .f32⟩
  | .hbm, ⟨11, _⟩ => ⟨S128x768, .f32⟩
  | .hbm, ⟨12, _⟩ => ⟨S512x768, .f32⟩
  | .hbm, ⟨13, _⟩ => ⟨S768, .f32⟩
  | .hbm, ⟨14, _⟩ => ⟨S768, .f32⟩
  | .hbm, ⟨15, _⟩ => ⟨S768x768, .f32⟩
  | .hbm, ⟨16, _⟩ => ⟨S768, .f32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S65536x1, .i32⟩
  | .hbm, ⟨25, _⟩ => ⟨S65536x768, .f32⟩
  | .hbm, ⟨26, _⟩ => ⟨S_, .f32⟩
  | .hbm, ⟨27, _⟩ => ⟨S4096x768, .f32⟩
  | .hbm, ⟨28, _⟩ => ⟨S65536x1, .i32⟩
  | .hbm, ⟨29, _⟩ => ⟨S4096x768, .f32⟩
  | .hbm, ⟨30, _⟩ => ⟨S_, .f32⟩
  | .hbm, ⟨31, _⟩ => ⟨S65536, .f32⟩
  | .hbm, ⟨32, _⟩ => ⟨S_, .f32⟩
  | .hbm, ⟨33, _⟩ => ⟨S4096, .f32⟩
  | .hbm, ⟨34, _⟩ => ⟨S65536x1, .i32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096x1, .f32⟩
  | .hbm, ⟨40, _⟩ => ⟨S4096x768, .f32⟩
  | .hbm, ⟨41, _⟩ => ⟨S4096x768, .f32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x768, .f32⟩
  | .hbm, ⟨48, _⟩ => ⟨S32x128x768, .f32⟩
  | .hbm, ⟨49, _⟩ => ⟨S_, .i1⟩
  | .hbm, ⟨50, _⟩ => ⟨S32x128, .i1⟩
  | .local _ .vmem, ⟨0, _⟩ => ⟨S512x768, .f32⟩
  | .local _ .vmem, ⟨1, _⟩ => ⟨S512x768, .f32⟩
  | .local _ .vmem, ⟨2, _⟩ => ⟨S512, .i32⟩
  | .local _ .vmem, ⟨3, _⟩ => ⟨S512, .i32⟩
  | .local _ .vmem, ⟨4, _⟩ => ⟨S512, .i32⟩
  | .local _ .vmem, ⟨5, _⟩ => ⟨S512, .i32⟩
  | .local _ .vmem, ⟨6, _⟩ => ⟨S512, .i32⟩
  | .local _ .vmem, ⟨7, _⟩ => ⟨S512, .i32⟩
  | .local _ .vmem, ⟨8, _⟩ => ⟨S512, .i32⟩
  | .local _ .vmem, ⟨9, _⟩ => ⟨S512, .i32⟩
  | .local _ .vmem, ⟨10, _⟩ => ⟨S512, .i32⟩
  | .local _ .vmem, ⟨11, _⟩ => ⟨S512, .i32⟩
  | .local _ .vmem, ⟨12, _⟩ => ⟨S6x768, .f32⟩
  | .local _ .vmem, ⟨13, _⟩ => ⟨S3x768, .f32⟩
  | .local _ .vmem, ⟨14, _⟩ => ⟨S2x768, .f32⟩
  | .local _ .vmem, ⟨15, _⟩ => ⟨S128x768, .f32⟩
  | .local _ .vmem, ⟨16, _⟩ => ⟨S512x768, .f32⟩
  | .local _ .vmem, ⟨17, _⟩ => ⟨S768, .f32⟩
  | .local _ .vmem, ⟨18, _⟩ => ⟨S768, .f32⟩
  | .local _ .vmem, ⟨19, _⟩ => ⟨S768x768, .f32⟩
  | .local _ .vmem, ⟨20, _⟩ => ⟨S768, .f32⟩
  | .local _ .vmem, ⟨21, _⟩ => ⟨S512x768, .f32⟩
  | .local _ .vmem, ⟨22, _⟩ => ⟨S512x768, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S4096x768 : S_.BroadcastsInDim S4096x768 (![] : Fin 0 → Fin S4096x768.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x768_0_1 : S4096x1.BroadcastsInDim S4096x768 (![0, 1] : Fin 2 → Fin S4096x768.rank)
  shapeCasts_S32x128_S4096 : S32x128.ShapeCasts S4096
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S512_S512_0 : ∀ a, (![0] : Fin 1 → Nat) a + S512.size a ≤ S512.size a
  h_S512 : 0 < S512.numel
  shapeCasts_S512_S512 : S512.ShapeCasts S512
  shapeCasts_S512_S512x1 : S512.ShapeCasts S512x1
  iota_S512x6_d1_w32 : S512x6.Iotas .tc 32 [1]
  broadcasts_S512x1_S512x6 : S512x1.Broadcasts S512x6
  natLt_1_32 : 1 < 32
  bitsLt_bf16_f32 : FTy.bits .bf16 < FTy.bits .f32
  inb_S6x768_S6x768_0_0 : ∀ a, (![0, 0] : Fin 2 → Nat) a + S6x768.size a ≤ S6x768.size a
  h_S6x768 : 0 < S6x768.numel
  iota_S512x3_d1_w32 : S512x3.Iotas .tc 32 [1]
  broadcasts_S512x1_S512x3 : S512x1.Broadcasts S512x3
  inb_S3x768_S3x768_0_0 : ∀ a, (![0, 0] : Fin 2 → Nat) a + S3x768.size a ≤ S3x768.size a
  h_S3x768 : 0 < S3x768.numel
  iota_S512x2_d1_w32 : S512x2.Iotas .tc 32 [1]
  broadcasts_S512x1_S512x2 : S512x1.Broadcasts S512x2
  inb_S2x768_S2x768_0_0 : ∀ a, (![0, 0] : Fin 2 → Nat) a + S2x768.size a ≤ S2x768.size a
  h_S2x768 : 0 < S2x768.numel
  iota_S512x128_d1_w32 : S512x128.Iotas .tc 32 [1]
  broadcasts_S512x1_S512x128 : S512x1.Broadcasts S512x128
  inb_S128x768_S128x768_0_0 : ∀ a, (![0, 0] : Fin 2 → Nat) a + S128x768.size a ≤ S128x768.size a
  h_S128x768 : 0 < S128x768.numel
  iota_S512x512_d1_w32 : S512x512.Iotas .tc 32 [1]
  broadcasts_S512x1_S512x512 : S512x1.Broadcasts S512x512
  reduces_S512x768_S512 : S512x768.Reduces [1] S512
  broadcasts_S512x1_S512x768 : S512x1.Broadcasts S512x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  inb_S768x768_S768x768_0_0 : ∀ a, (![0, 0] : Fin 2 → Nat) a + S768x768.size a ≤ S768x768.size a
  h_S768x768 : 0 < S768x768.numel
  shapeCasts_S4096x768_S32x128x768 : S4096x768.ShapeCasts S32x128x768
  bcast_S_S32x128 : S_.BroadcastsInDim S32x128 (![] : Fin 0 → Fin S32x128.rank)
  gather_S30522x768_S65536x1_S65536x768_1_0_n_n_0_1_1768_wf : GatherDims.WF S30522x768 S65536x1 S65536x768 [1] [0] [] [0] [] 1 ![1, 768]
  scatter_S4096x768_S65536x1_S65536x768_1_0_0_1_wf : ScatterDims.WF S4096x768 S65536x1 S65536x768 [1] [0] [0] 1
  scatter_S4096_S65536x1_S65536_n_0_0_1_wf : ScatterDims.WF S4096 S65536x1 S65536 [] [0] [0] 1
  dot_S512x6_S6x768_S512x768_1_0_0_1_n_n_wf : DotDims.WF S512x6 S6x768 S512x768 [1] [0] [0] [1] [] []
  dot_S512x3_S3x768_S512x768_1_0_0_1_n_n_wf : DotDims.WF S512x3 S3x768 S512x768 [1] [0] [0] [1] [] []
  dot_S512x2_S2x768_S512x768_1_0_0_1_n_n_wf : DotDims.WF S512x2 S2x768 S512x768 [1] [0] [0] [1] [] []
  dot_S512x128_S128x768_S512x768_1_0_0_1_n_n_wf : DotDims.WF S512x128 S128x768 S512x768 [1] [0] [0] [1] [] []
  dot_S512x512_S512x768_S512x768_1_0_0_1_n_n_wf : DotDims.WF S512x512 S512x768 S512x768 [1] [0] [0] [1] [] []
  dot_S512x768_S768x768_S512x768_1_1_0_0_n_n_wf : DotDims.WF S512x768 S768x768 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S4096.size a
  hwx0_1 : ∀ i : grid0.Coords, EltTy.bits .i32 = 32 ∨ (Rect.block (s := S4096) S512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .i32 = 32 ∨ (Rect.block (s := S4096) S512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .i32 = 32 ∨ (Rect.block (s := S4096) S512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .i32 = 32 ∨ (Rect.block (s := S4096) S512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S4096.size a
  hwx0_5 : ∀ i : grid0.Coords, EltTy.bits .i32 = 32 ∨ (Rect.block (s := S4096) S512.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x768.size a ≤ S6x768.size a
  hwx0_6 : ∀ i : grid0.Coords, EltTy.bits .f32 = 32 ∨ (Rect.block (s := S6x768) S6x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x768.size a ≤ S3x768.size a
  hwx0_7 : ∀ i : grid0.Coords, EltTy.bits .f32 = 32 ∨ (Rect.block (s := S3x768) S3x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x768.size a ≤ S2x768.size a
  hwx0_8 : ∀ i : grid0.Coords, EltTy.bits .f32 = 32 ∨ (Rect.block (s := S2x768) S2x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x768.size a ≤ S128x768.size a
  hwx0_9 : ∀ i : grid0.Coords, EltTy.bits .f32 = 32 ∨ (Rect.block (s := S128x768) S128x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x768.size a ≤ S512x768.size a
  hwx0_10 : ∀ i : grid0.Coords, EltTy.bits .f32 = 32 ∨ (Rect.block (s := S512x768) S512x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S768.size a ≤ S768.size a
  hwx0_11 : ∀ i : grid0.Coords, EltTy.bits .f32 = 32 ∨ (Rect.block (s := S768) S768.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768.size a ≤ S768.size a
  hwx0_12 : ∀ i : grid0.Coords, EltTy.bits .f32 = 32 ∨ (Rect.block (s := S768) S768.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768x768.size a ≤ S768x768.size a
  hwx0_13 : ∀ i : grid0.Coords, EltTy.bits .f32 = 32 ∨ (Rect.block (s := S768x768) S768x768.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768.size a ≤ S768.size a
  hwx0_14 : ∀ i : grid0.Coords, EltTy.bits .f32 = 32 ∨ (Rect.block (s := S768) S768.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x768.size a ≤ S4096x768.size a
  hwx0_15 : ∀ i : grid0.Coords, EltTy.bits .f32 = 32 ∨ (Rect.block (s := S4096x768) S512x768.size (cc0_transform_15 i) (hinb0_15 i)).WholeWords (EltTy.packing .f32)

variable [Facts₀]

def gather_S30522x768_S65536x1_S65536x768_1_0_n_n_0_1_1768 : GatherDims S30522x768 S65536x1 S65536x768 where
  offsetDims := [1]
  collapsedSliceDims := [0]
  operandBatchingDims := []
  startIndicesBatchingDims := []
  startIndexMap := [0]
  indexVectorDim := 1
  sliceSizes := ![1, 768]
  wf := gather_S30522x768_S65536x1_S65536x768_1_0_n_n_0_1_1768_wf
def scatter_S4096x768_S65536x1_S65536x768_1_0_0_1 : ScatterDims S4096x768 S65536x1 S65536x768 where
  updateWindowDims := [1]
  insertedWindowDims := [0]
  scatterDimsToOperandDims := [0]
  indexVectorDim := 1
  wf := scatter_S4096x768_S65536x1_S65536x768_1_0_0_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def dot_S512x6_S6x768_S512x768_1_0_0_1_n_n : DotDims S512x6 S6x768 S512x768 where
  lhsContracting := [1]
  rhsContracting := [0]
  lhsNonContracting := [0]
  rhsNonContracting := [1]
  lhsBatch := []
  rhsBatch := []
  wf := dot_S512x6_S6x768_S512x768_1_0_0_1_n_n_wf
def dot_S512x3_S3x768_S512x768_1_0_0_1_n_n : DotDims S512x3 S3x768 S512x768 where
  lhsContracting := [1]
  rhsContracting := [0]
  lhsNonContracting := [0]
  rhsNonContracting := [1]
  lhsBatch := []
  rhsBatch := []
  wf := dot_S512x3_S3x768_S512x768_1_0_0_1_n_n_wf
def dot_S512x2_S2x768_S512x768_1_0_0_1_n_n : DotDims S512x2 S2x768 S512x768 where
  lhsContracting := [1]
  rhsContracting := [0]
  lhsNonContracting := [0]
  rhsNonContracting := [1]
  lhsBatch := []
  rhsBatch := []
  wf := dot_S512x2_S2x768_S512x768_1_0_0_1_n_n_wf
def dot_S512x128_S128x768_S512x768_1_0_0_1_n_n : DotDims S512x128 S128x768 S512x768 where
  lhsContracting := [1]
  rhsContracting := [0]
  lhsNonContracting := [0]
  rhsNonContracting := [1]
  lhsBatch := []
  rhsBatch := []
  wf := dot_S512x128_S128x768_S512x768_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf

abbrev win0_0 : Pipeline.Window sig grid0 :=
  Pipeline.Window.ofSpec (Memref.whole main_v18) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S6x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S3x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S2x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S512x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S768.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S768x768.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S768.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24) S512x768.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S65536 : Shape := ⟨1, ![65536]⟩
abbrev S32x128 : Shape := ⟨2, ![32, 128]⟩
abbrev S30522x768 : Shape := ⟨2, ![30522, 768]⟩
abbrev S6x768 : Shape := ⟨2, ![6, 768]⟩
abbrev S3x768 : Shape := ⟨2, ![3, 768]⟩
abbrev S2x768 : Shape := ⟨2, ![2, 768]⟩
abbrev S128x768 : Shape := ⟨2, ![128, 768]⟩
abbrev S512x768 : Shape := ⟨2, ![512, 768]⟩
abbrev S768 : Shape := ⟨1, ![768]⟩
abbrev S768x768 : Shape := ⟨2, ![768, 768]⟩
abbrev S_ : Shape := ⟨0, ![]⟩
abbrev S65536x1 : Shape := ⟨2, ![65536, 1]⟩
abbrev S65536x768 : Shape := ⟨2, ![65536, 768]⟩
abbrev S4096x768 : Shape := ⟨2, ![4096, 768]⟩
abbrev S4096 : Shape := ⟨1, ![4096]⟩
abbrev S4096x1 : Shape := ⟨2, ![4096, 1]⟩
abbrev S32x128x768 : Shape := ⟨3, ![32, 128, 768]⟩
abbrev S32x128x1 : Shape := ⟨3, ![32, 128, 1]⟩
abbrev S1x1x768 : Shape := ⟨3, ![1, 1, 768]⟩

abbrev nBuf : Space → Nat
  | .hbm => 128
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S32x128, .i32⟩
  | .hbm, ⟨3, _⟩ => ⟨S32x128, .i32⟩
  | .hbm, ⟨4, _⟩ => ⟨S32x128, .i32⟩
  | .hbm, ⟨5, _⟩ => ⟨S32x128, .i32⟩
  | .hbm, ⟨6, _⟩ => ⟨S32x128, .i32⟩
  | .hbm, ⟨7, _⟩ => ⟨S30522x768, .f32⟩
  | .hbm, ⟨8, _⟩ => ⟨S6x768, .f32⟩
  | .hbm, ⟨9, _⟩ => ⟨S3x768, .f32⟩
  | .hbm, ⟨10, _⟩ => ⟨S2x768, .f32⟩
  | .hbm, ⟨11, _⟩ => ⟨S128x768, .f32⟩
  | .hbm, ⟨12, _⟩ => ⟨S512x768, .f32⟩
  | .hbm, ⟨13, _⟩ => ⟨S768, .f32⟩
  | .hbm, ⟨14, _⟩ => ⟨S768, .f32⟩
  | .hbm, ⟨15, _⟩ => ⟨S768x768, .f32⟩
  | .hbm, ⟨16, _⟩ => ⟨S768, .f32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S65536x1, .i32⟩
  | .hbm, ⟨25, _⟩ => ⟨S65536x768, .f32⟩
  | .hbm, ⟨26, _⟩ => ⟨S_, .f32⟩
  | .hbm, ⟨27, _⟩ => ⟨S4096x768, .f32⟩
  | .hbm, ⟨28, _⟩ => ⟨S65536x1, .i32⟩
  | .hbm, ⟨29, _⟩ => ⟨S4096x768, .f32⟩
  | .hbm, ⟨30, _⟩ => ⟨S_, .f32⟩
  | .hbm, ⟨31, _⟩ => ⟨S65536, .f32⟩
  | .hbm, ⟨32, _⟩ => ⟨S_, .f32⟩
  | .hbm, ⟨33, _⟩ => ⟨S4096, .f32⟩
  | .hbm, ⟨34, _⟩ => ⟨S65536x1, .i32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096x1, .f32⟩
  | .hbm, ⟨40, _⟩ => ⟨S4096x768, .f32⟩
  | .hbm, ⟨41, _⟩ => ⟨S4096x768, .f32⟩
  | .hbm, ⟨42, _⟩ => ⟨S32x128x768, .f32⟩
  | .hbm, ⟨43, _⟩ => ⟨S_, .i32⟩
  | .hbm, ⟨44, _⟩ => ⟨S32x128, .i32⟩
  | .hbm, ⟨45, _⟩ => ⟨S32x128, .i1⟩
  | .hbm, ⟨46, _⟩ => ⟨S_, .i32⟩
  | .hbm, ⟨47, _⟩ => ⟨S32x128, .i32⟩
  | .hbm, ⟨48, _⟩ => ⟨S32x128, .i32⟩
  | .hbm, ⟨49, _⟩ => ⟨S32x128, .i32⟩
  | .hbm, ⟨50, _⟩ => ⟨S32x128x1, .i32⟩
  | .hbm, ⟨51, _⟩ => ⟨S32x128x768, .f32⟩
  | .hbm, ⟨52, _⟩ => ⟨S32x128x768, .f32⟩
  | .hbm, ⟨53, _⟩ => ⟨S_, .i32⟩
  | .hbm, ⟨54, _⟩ => ⟨S32x128, .i32⟩
  | .hbm, ⟨55, _⟩ => ⟨S32x128, .i1⟩
  | .hbm, ⟨56, _⟩ => ⟨S_, .i32⟩
  | .hbm, ⟨57, _⟩ => ⟨S32x128, .i32⟩
  | .hbm, ⟨58, _⟩ => ⟨S32x128, .i32⟩
  | .hbm, ⟨59, _⟩ => ⟨S32x128, .i32⟩
  | .hbm, ⟨60, _⟩ => ⟨S32x128x1, .i32⟩
  | .hbm, ⟨61, _⟩ => ⟨S32x128x768, .f32⟩
  | .hbm, ⟨62, _⟩ => ⟨S32x128x768, .f32⟩
  | .hbm, ⟨63, _⟩ => ⟨S_, .i32⟩
  | .hbm, ⟨64, _⟩ => ⟨S32x128, .i32⟩
  | .hbm, ⟨65, _⟩ => ⟨S32x128, .i1⟩
  | .hbm, ⟨66, _⟩ => ⟨S_, .i32⟩
  | .hbm, ⟨67, _⟩ => ⟨S32x128, .i32⟩
  | .hbm, ⟨68, _⟩ => ⟨S32x128, .i32⟩
  | .hbm, ⟨69, _⟩ => ⟨S32x128, .i32⟩
  | .hbm, ⟨70, _⟩ => ⟨S32x128x1, .i32⟩
  | .hbm, ⟨71, _⟩ => ⟨S32x128x768, .f32⟩
  | .hbm, ⟨72, _⟩ => ⟨S32x128x768, .f32⟩
  | .hbm, ⟨73, _⟩ => ⟨S_, .i32⟩
  | .hbm, ⟨74, _⟩ => ⟨S32x128, .i32⟩
  | .hbm, ⟨75, _⟩ => ⟨S32x128, .i1⟩
  | .hbm, ⟨76, _⟩ => ⟨S_, .i32⟩
  | .hbm, ⟨77, _⟩ => ⟨S32x128, .i32⟩
  | .hbm, ⟨78, _⟩ => ⟨S32x128, .i32⟩
  | .hbm, ⟨79, _⟩ => ⟨S32x128, .i32⟩
  | .hbm, ⟨80, _⟩ => ⟨S32x128x1, .i32⟩
  | .hbm, ⟨81, _⟩ => ⟨S32x128x768, .f32⟩
  | .hbm, ⟨82, _⟩ => ⟨S32x128x768, .f32⟩
  | .hbm, ⟨83, _⟩ => ⟨S_, .i32⟩
  | .hbm, ⟨84, _⟩ => ⟨S32x128, .i32⟩
  | .hbm, ⟨85, _⟩ => ⟨S32x128, .i1⟩
  | .hbm, ⟨86, _⟩ => ⟨S_, .i32⟩
  | .hbm, ⟨87, _⟩ => ⟨S32x128, .i32⟩
  | .hbm, ⟨88, _⟩ => ⟨S32x128, .i32⟩
  | .hbm, ⟨89, _⟩ => ⟨S32x128, .i32⟩
  | .hbm, ⟨90, _⟩ => ⟨S32x128x1, .i32⟩
  | .hbm, ⟨91, _⟩ => ⟨S32x128x768, .f32⟩
  | .hbm, ⟨92, _⟩ => ⟨S32x128x768, .f32⟩
  | .hbm, ⟨93, _⟩ => ⟨S_, .f32⟩
  | .hbm, ⟨94, _⟩ => ⟨S32x128, .f32⟩
  | .hbm, ⟨95, _⟩ => ⟨S32x128x1, .f32⟩
  | .hbm, ⟨96, _⟩ => ⟨S_, .f32⟩
  | .hbm, ⟨97, _⟩ => ⟨S32x128x1, .f32⟩
  | .hbm, ⟨98, _⟩ => ⟨S32x128x1, .f32⟩
  | .hbm, ⟨99, _⟩ => ⟨S32x128x768, .f32⟩
  | .hbm, ⟨100, _⟩ => ⟨S32x128x768, .f32⟩
  | .hbm, ⟨101, _⟩ => ⟨S32x128x768, .f32⟩
  | .hbm, ⟨102, _⟩ => ⟨S_, .f32⟩
  | .hbm, ⟨103, _⟩ => ⟨S32x128, .f32⟩
  | .hbm, ⟨104, _⟩ => ⟨S32x128x1, .f32⟩
  | .hbm, ⟨105, _⟩ => ⟨S_, .f32⟩
  | .hbm, ⟨106, _⟩ => ⟨S32x128x1, .f32⟩
  | .hbm, ⟨107, _⟩ => ⟨S32x128x1, .f32⟩
  | .hbm, ⟨108, _⟩ => ⟨S32x128x768, .f32⟩
  | .hbm, ⟨109, _⟩ => ⟨S32x128x768, .f32⟩
  | .hbm, ⟨110, _⟩ => ⟨S_, .f32⟩
  | .hbm, ⟨111, _⟩ => ⟨S32x128x1, .f32⟩
  | .hbm, ⟨112, _⟩ => ⟨S32x128x1, .f32⟩
  | .hbm, ⟨113, _⟩ => ⟨S32x128x1, .f32⟩
  | .hbm, ⟨114, _⟩ => ⟨S32x128x768, .f32⟩
  | .hbm, ⟨115, _⟩ => ⟨S32x128x768, .f32⟩
  | .hbm, ⟨116, _⟩ => ⟨S1x1x768, .f32⟩
  | .hbm, ⟨117, _⟩ => ⟨S32x128x768, .f32⟩
  | .hbm, ⟨118, _⟩ => ⟨S32x128x768, .f32⟩
  | .hbm, ⟨119, _⟩ => ⟨S1x1x768, .f32⟩
  | .hbm, ⟨120, _⟩ => ⟨S32x128x768, .f32⟩
  | .hbm, ⟨121, _⟩ => ⟨S32x128x768, .f32⟩
  | .hbm, ⟨122, _⟩ => ⟨S32x128x768, .f32⟩
  | .hbm, ⟨123, _⟩ => ⟨S1x1x768, .f32⟩
  | .hbm, ⟨124, _⟩ => ⟨S32x128x768, .f32⟩
  | .hbm, ⟨125, _⟩ => ⟨S32x128x768, .f32⟩
  | .hbm, ⟨126, _⟩ => ⟨S_, .i1⟩
  | .hbm, ⟨127, _⟩ => ⟨S32x128, .i1⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_12 : Ref sig .tc := ⟨.hbm, 83, rfl⟩
abbrev main_v52 : Ref sig .tc := ⟨.hbm, 84, rfl⟩
abbrev main_v53 : Ref sig .tc := ⟨.hbm, 85, rfl⟩
abbrev main_c_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_14 : Ref sig .tc := ⟨.hbm, 93, rfl⟩
abbrev main_v60 : Ref sig .tc := ⟨.hbm, 94, rfl⟩
abbrev main_v61 : Ref sig .tc := ⟨.hbm, 95, rfl⟩
abbrev main_cst_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_16 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_18 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_19 : Ref sig .tc := ⟨.hbm, 126, rfl⟩
abbrev main_v88 : Ref sig .tc := ⟨.hbm, 127, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S4096x768 : S_.BroadcastsInDim S4096x768 (![] : Fin 0 → Fin S4096x768.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x768_0_1 : S4096x1.BroadcastsInDim S4096x768 (![0, 1] : Fin 2 → Fin S4096x768.rank)
  shapeCasts_S4096x768_S32x128x768 : S4096x768.ShapeCasts S32x128x768
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  reducesTo_S32x128x768_S32x128_d2 : S32x128x768.ReducesTo [2] S32x128
  h_S_ : 0 < S_.numel
  bcast_S_S32x128x1 : S_.BroadcastsInDim S32x128x1 (![] : Fin 0 → Fin S32x128x1.rank)
  bcast_S32x128x1_S32x128x768_0_1_2 : S32x128x1.BroadcastsInDim S32x128x768 (![0, 1, 2] : Fin 3 → Fin S32x128x768.rank)
  bcast_S768_S1x1x768_2 : S768.BroadcastsInDim S1x1x768 (![2] : Fin 1 → Fin S1x1x768.rank)
  bcast_S1x1x768_S32x128x768_0_1_2 : S1x1x768.BroadcastsInDim S32x128x768 (![0, 1, 2] : Fin 3 → Fin S32x128x768.rank)
  gather_S30522x768_S65536x1_S65536x768_1_0_n_n_0_1_1768_wf : GatherDims.WF S30522x768 S65536x1 S65536x768 [1] [0] [] [0] [] 1 ![1, 768]
  scatter_S4096x768_S65536x1_S65536x768_1_0_0_1_wf : ScatterDims.WF S4096x768 S65536x1 S65536x768 [1] [0] [0] 1
  scatter_S4096_S65536x1_S65536_n_0_0_1_wf : ScatterDims.WF S4096 S65536x1 S65536 [] [0] [0] 1
  gather_S6x768_S32x128x1_S32x128x768_2_0_n_n_0_2_1768_wf : GatherDims.WF S6x768 S32x128x1 S32x128x768 [2] [0] [] [0] [] 2 ![1, 768]
  gather_S3x768_S32x128x1_S32x128x768_2_0_n_n_0_2_1768_wf : GatherDims.WF S3x768 S32x128x1 S32x128x768 [2] [0] [] [0] [] 2 ![1, 768]
  gather_S2x768_S32x128x1_S32x128x768_2_0_n_n_0_2_1768_wf : GatherDims.WF S2x768 S32x128x1 S32x128x768 [2] [0] [] [0] [] 2 ![1, 768]
  gather_S128x768_S32x128x1_S32x128x768_2_0_n_n_0_2_1768_wf : GatherDims.WF S128x768 S32x128x1 S32x128x768 [2] [0] [] [0] [] 2 ![1, 768]
  gather_S512x768_S32x128x1_S32x128x768_2_0_n_n_0_2_1768_wf : GatherDims.WF S512x768 S32x128x1 S32x128x768 [2] [0] [] [0] [] 2 ![1, 768]
  dot_S32x128x768_S768x768_S32x128x768_2_1_01_0_n_n_wf : DotDims.WF S32x128x768 S768x768 S32x128x768 [2] [1] [0, 1] [0] [] []

variable [Facts₀]

def gather_S30522x768_S65536x1_S65536x768_1_0_n_n_0_1_1768 : GatherDims S30522x768 S65536x1 S65536x768 where
  offsetDims := [1]
  collapsedSliceDims := [0]
  operandBatchingDims := []
  startIndicesBatchingDims := []
  startIndexMap := [0]
  indexVectorDim := 1
  sliceSizes := ![1, 768]
  wf := gather_S30522x768_S65536x1_S65536x768_1_0_n_n_0_1_1768_wf
def scatter_S4096x768_S65536x1_S65536x768_1_0_0_1 : ScatterDims S4096x768 S65536x1 S65536x768 where
  updateWindowDims := [1]
  insertedWindowDims := [0]
  scatterDimsToOperandDims := [0]
  indexVectorDim := 1
  wf := scatter_S4096x768_S65536x1_S65536x768_1_0_0_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def gather_S6x768_S32x128x1_S32x128x768_2_0_n_n_0_2_1768 : GatherDims S6x768 S32x128x1 S32x128x768 where
  offsetDims := [2]
  collapsedSliceDims := [0]
  operandBatchingDims := []
  startIndicesBatchingDims := []
  startIndexMap := [0]
  indexVectorDim := 2
  sliceSizes := ![1, 768]
  wf := gather_S6x768_S32x128x1_S32x128x768_2_0_n_n_0_2_1768_wf
def gather_S3x768_S32x128x1_S32x128x768_2_0_n_n_0_2_1768 : GatherDims S3x768 S32x128x1 S32x128x768 where
  offsetDims := [2]
  collapsedSliceDims := [0]
  operandBatchingDims := []
  startIndicesBatchingDims := []
  startIndexMap := [0]
  indexVectorDim := 2
  sliceSizes := ![1, 768]
  wf := gather_S3x768_S32x128x1_S32x128x768_2_0_n_n_0_2_1768_wf
def gather_S2x768_S32x128x1_S32x128x768_2_0_n_n_0_2_1768 : GatherDims S2x768 S32x128x1 S32x128x768 where
  offsetDims := [2]
  collapsedSliceDims := [0]
  operandBatchingDims := []
  startIndicesBatchingDims := []
  startIndexMap := [0]
  indexVectorDim := 2
  sliceSizes := ![1, 768]
  wf := gather_S2x768_S32x128x1_S32x128x768_2_0_n_n_0_2_1768_wf
def gather_S128x768_S32x128x1_S32x128x768_2_0_n_n_0_2_1768 : GatherDims S128x768 S32x128x1 S32x128x768 where
  offsetDims := [2]
  collapsedSliceDims := [0]
  operandBatchingDims := []
  startIndicesBatchingDims := []
  startIndexMap := [0]
  indexVectorDim := 2
  sliceSizes := ![1, 768]
  wf := gather_S128x768_S32x128x1_S32x128x768_2_0_n_n_0_2_1768_wf
def gather_S512x768_S32x128x1_S32x128x768_2_0_n_n_0_2_1768 : GatherDims S512x768 S32x128x1 S32x128x768 where
  offsetDims := [2]
  collapsedSliceDims := [0]
  operandBatchingDims := []
  startIndicesBatchingDims := []
  startIndexMap := [0]
  indexVectorDim := 2
  sliceSizes := ![1, 768]
  wf := gather_S512x768_S32x128x1_S32x128x768_2_0_n_n_0_2_1768_wf
def dot_S32x128x768_S768x768_S32x128x768_2_1_01_0_n_n : DotDims S32x128x768 S768x768 S32x128x768 where
  lhsContracting := [2]
  rhsContracting := [1]
  lhsNonContracting := [0, 1]
  rhsNonContracting := [0]
  lhsBatch := []
  rhsBatch := []
  wf := dot_S32x128x768_S768x768_S32x128x768_2_1_01_0_n_n_wf

class Facts : Prop extends Facts₀ where

variable [Facts]
-- ==== Proof.Spec.lean ====
/-
  The value both programs compute, stated once over plain index functions.

  A sentence is a row of 768 extended reals. Its enriched row is the pooled token row plus one row of each of five
  small tables, added left to right; the row is then normalised (its mean and its mean squared deviation, each a
  quotient by 768; the deviation scaled by the reciprocal square root of the variance plus a small constant, by a gain
  and an offset), and the normalised row is contracted with each row of a square weight matrix and an offset added.
  `outAt` is that number for sentence `r` of 4096 and output column `e`; `Gflat` is the [4096, 768] array of them
  and `G` the same array laid out as [32, 128, 768], sentence `(b, s)` being row `b * 128 + s`.
-/
import Idealize.ShloMosaic.PureOps.Ideal
import Idealize.ShloMosaic.Lib.ValueIdx

noncomputable section

namespace Cert.Spec

open Idealize.ShloMosaic Idealize.ShloMosaic.ValueIdx

/-- One row of 768 extended reals. -/
abbrev Row := Fin 768 → EReal

/-- The mean of a row: its sum divided by the number 768 as the programs write it. -/
def mean (x : Row) : EReal := Ideal.div (∑ k : Fin 768, x k) (Ideal.ofBits .f32 0x44400000#32)

/-- Layer normalisation of one row with gain `γ` and offset `β`. -/
def normed (x γ β : Row) : Row := fun d =>
  (x d - mean x) * Ideal.rsqrt (mean (fun k => (x k - mean x) * (x k - mean x)) + Ideal.ofBits .f32 0x3727C5AC#32) * γ d + β d

/-- The projection: output column `e` is the row contracted with row `e` of the weights, plus the offset. -/
def proj (y : Row) (w : Fin 768 → Row) (b : Row) : Row := fun e => (∑ d : Fin 768, y d * w e d) + b e

/-- Normalise, then project. -/
def rowOut (x γ β : Row) (w : Fin 768 → Row) (b : Row) : Row := proj (normed x γ β) w b

/-- Six rows added left to right. -/
def enrich (x0 x1 x2 x3 x4 x5 : Row) : Row := fun d => x0 d + x1 d + x2 d + x3 d + x4 d + x5 d

/-- Row `w mod N` of an [N, 768] table (row `w` itself when `w` is a row of the table). -/
def tabRow {N : Nat} (hN : 0 < N) (tab : (⟨2, ![N, 768]⟩ : Shape).Idx → EReal) (w : BitVec 32) : Row :=
  fun d => tab (ix2 ⟨w.toNat % N, Nat.mod_lt _ hN⟩ d)

/-- A word that, read signed, is a row number of a table with `N` rows. -/
def InRange (N : Nat) (w : BitVec 32) : Prop := 0 ≤ w.toInt ∧ w.toInt < (N : Int)

/-- The output for sentence `r` and column `e`, the sentence's five table rows chosen by the flat id arrays. -/
def outAt (base : (⟨2, ![4096, 768]⟩ : Shape).Idx → EReal)
    (f1 f2 f3 f4 f5 : (⟨1, ![4096]⟩ : Shape).Idx → BitVec 32)
    (t1 : (⟨2, ![6, 768]⟩ : Shape).Idx → EReal) (t2 : (⟨2, ![3, 768]⟩ : Shape).Idx → EReal)
    (t3 : (⟨2, ![2, 768]⟩ : Shape).Idx → EReal) (t4 : (⟨2, ![128, 768]⟩ : Shape).Idx → EReal)
    (t5 : (⟨2, ![512, 768]⟩ : Shape).Idx → EReal)
    (γ β : (⟨1, ![768]⟩ : Shape).Idx → EReal) (w : (⟨2, ![768, 768]⟩ : Shape).Idx → EReal)
    (b : (⟨1, ![768]⟩ : Shape).Idx → EReal) (r : Fin 4096) (e : Fin 768) : EReal :=
  rowOut
    (enrich (fun d => base (ix2 r d)) (tabRow (by decide) t1 (f1 (ix1 r))) (tabRow (by decide) t2 (f2 (ix1 r)))
      (tabRow (by decide) t3 (f3 (ix1 r))) (tabRow (by decide) t4 (f4 (ix1 r))) (tabRow (by decide) t5 (f5 (ix1 r))))
    (fun d => γ (ix1 d)) (fun d => β (ix1 d)) (fun e' d => w (ix2 e' d)) (fun e' => b (ix1 e')) e

/-- The [4096, 768] array of outputs. -/
def Gflat (base : (⟨2, ![4096, 768]⟩ : Shape).Idx → EReal)
    (f1 f2 f3 f4 f5 : (⟨1, ![4096]⟩ : Shape).Idx → BitVec 32)
    (t1 : (⟨2, ![6, 768]⟩ : Shape).Idx → EReal) (t2 : (⟨2, ![3, 768]⟩ : Shape).Idx → EReal)
    (t3 : (⟨2, ![2, 768]⟩ : Shape).Idx → EReal) (t4 : (⟨2, ![128, 768]⟩ : Shape).Idx → EReal)
    (t5 : (⟨2, ![512, 768]⟩ : Shape).Idx → EReal)
    (γ β : (⟨1, ![768]⟩ : Shape).Idx → EReal) (w : (⟨2, ![768, 768]⟩ : Shape).Idx → EReal)
    (b : (⟨1, ![768]⟩ : Shape).Idx → EReal) : (⟨2, ![4096, 768]⟩ : Shape).Idx → EReal :=
  fun j => outAt base f1 f2 f3 f4 f5 t1 t2 t3 t4 t5 γ β w b ⟨(j 0).val, idx2_lt0 j⟩ ⟨(j 1).val, idx2_lt1 j⟩

theorem Gflat_ix2 (base : (⟨2, ![4096, 768]⟩ : Shape).Idx → EReal)
    (f1 f2 f3 f4 f5 : (⟨1, ![4096]⟩ : Shape).Idx → BitVec 32)
    (t1 : (⟨2, ![6, 768]⟩ : Shape).Idx → EReal) (t2 : (⟨2, ![3, 768]⟩ : Shape).Idx → EReal)
    (t3 : (⟨2, ![2, 768]⟩ : Shape).Idx → EReal) (t4 : (⟨2, ![128, 768]⟩ : Shape).Idx → EReal)
    (t5 : (⟨2, ![512, 768]⟩ : Shape).Idx → EReal)
    (γ β : (⟨1, ![768]⟩ : Shape).Idx → EReal) (w : (⟨2, ![768, 768]⟩ : Shape).Idx → EReal)
    (b : (⟨1, ![768]⟩ : Shape).Idx → EReal) (r : Fin 4096) (e : Fin 768) :
    Gflat base f1 f2 f3 f4 f5 t1 t2 t3 t4 t5 γ β w b (ix2 r e) = outAt base f1 f2 f3 f4 f5 t1 t2 t3 t4 t5 γ β w b r e := rfl

/-- A [32, 128] id array read row-major as [4096]: entry `r` is entry `(r / 128, r % 128)`. -/
def flat (ids : (⟨2, ![32, 128]⟩ : Shape).Idx → BitVec 32) : (⟨1, ![4096]⟩ : Shape).Idx → BitVec 32 :=
  fun j => ids (ix2 ⟨(j 0).val / 128, by have := (j 0).isLt; show (j 0).val / 128 < 32; have h : (j 0).val < 4096 := this; omega⟩
    ⟨(j 0).val % 128, Nat.mod_lt _ (by decide)⟩)

/-- Sentence `(b, s)` is row `b * 128 + s`. -/
def rowOf (b : Fin 32) (s : Fin 128) : Fin 4096 := ⟨b.val * 128 + s.val, by have := b.isLt; have := s.isLt; omega⟩

theorem flat_rowOf (ids : (⟨2, ![32, 128]⟩ : Shape).Idx → BitVec 32) (b : Fin 32) (s : Fin 128) :
    flat ids (ix1 (rowOf b s)) = ids (ix2 b s) := by
  unfold flat rowOf
  congr 1
  funext a
  have hb := b.isLt; have hs := s.isLt
  match a with
  | ⟨0, _⟩ => exact Fin.ext (show (b.val * 128 + s.val) / 128 = b.val by omega)
  | ⟨1, _⟩ => exact Fin.ext (show (b.val * 128 + s.val) % 128 = s.val by omega)

/-- The [32, 128, 768] array of outputs, from the [32, 128] id arrays. -/
def G (base : (⟨2, ![4096, 768]⟩ : Shape).Idx → EReal)
    (i1 i2 i3 i4 i5 : (⟨2, ![32, 128]⟩ : Shape).Idx → BitVec 32)
    (t1 : (⟨2, ![6, 768]⟩ : Shape).Idx → EReal) (t2 : (⟨2, ![3, 768]⟩ : Shape).Idx → EReal)
    (t3 : (⟨2, ![2, 768]⟩ : Shape).Idx → EReal) (t4 : (⟨2, ![128, 768]⟩ : Shape).Idx → EReal)
    (t5 : (⟨2, ![512, 768]⟩ : Shape).Idx → EReal)
    (γ β : (⟨1, ![768]⟩ : Shape).Idx → EReal) (w : (⟨2, ![768, 768]⟩ : Shape).Idx → EReal)
    (b : (⟨1, ![768]⟩ : Shape).Idx → EReal) : (⟨3, ![32, 128, 768]⟩ : Shape).Idx → EReal :=
  fun i => outAt base (flat i1) (flat i2) (flat i3) (flat i4) (flat i5) t1 t2 t3 t4 t5 γ β w b
    (rowOf ⟨(i 0).val, (i 0).isLt⟩ ⟨(i 1).val, (i 1).isLt⟩) ⟨(i 2).val, (i 2).isLt⟩

theorem G_ix3 (base : (⟨2, ![4096, 768]⟩ : Shape).Idx → EReal)
    (i1 i2 i3 i4 i5 : (⟨2, ![32, 128]⟩ : Shape).Idx → BitVec 32)
    (t1 : (⟨2, ![6, 768]⟩ : Shape).Idx → EReal) (t2 : (⟨2, ![3, 768]⟩ : Shape).Idx → EReal)
    (t3 : (⟨2, ![2, 768]⟩ : Shape).Idx → EReal) (t4 : (⟨2, ![128, 768]⟩ : Shape).Idx → EReal)
    (t5 : (⟨2, ![512, 768]⟩ : Shape).Idx → EReal)
    (γ β : (⟨1, ![768]⟩ : Shape).Idx → EReal) (w : (⟨2, ![768, 768]⟩ : Shape).Idx → EReal)
    (b : (⟨1, ![768]⟩ : Shape).Idx → EReal) (p : Fin 32) (s : Fin 128) (e : Fin 768) :
    G base i1 i2 i3 i4 i5 t1 t2 t3 t4 t5 γ β w b (ix3 p s e)
      = outAt base (flat i1) (flat i2) (flat i3) (flat i4) (flat i5) t1 t2 t3 t4 t5 γ β w b (rowOf p s) e := rfl

/-- A word in range, read unsigned, is below `N`; and its signed reading as a natural number is its unsigned one. -/
theorem InRange.toNat_lt {N : Nat} {w : BitVec 32} (h : InRange N w) (hN : N < 2 ^ 31) : w.toNat < N := by
  obtain ⟨h0, h1⟩ := h
  have h32 := w.isLt
  unfold BitVec.toInt at h0 h1
  split at h0 <;> omega

theorem InRange.toInt_toNat {N : Nat} {w : BitVec 32} (h : InRange N w) : w.toInt.toNat = w.toNat := by
  obtain ⟨h0, h1⟩ := h
  have h32 := w.isLt
  unfold BitVec.toInt at h0 ⊢
  split at h0 <;> omega

theorem tabRow_of_lt {N : Nat} (hN : 0 < N) (tab : (⟨2, ![N, 768]⟩ : Shape).Idx → EReal) (w : BitVec 32) (hw : w.toNat < N)
    (d : Fin 768) : tabRow hN tab w d = tab (ix2 ⟨w.toNat, hw⟩ d) := by
  unfold tabRow
  congr 1
  funext a
  match a with
  | ⟨0, _⟩ => exact Fin.ext (Nat.mod_eq_of_lt hw)
  | ⟨1, _⟩ => rfl

end Cert.Spec

end
-- ==== Proof.PreDecode.lean ====
/-
  The precondition read at an element: every id of the five small-table id arrays is, signed, a row number of its table.
-/
import proofs.«401159_j17291538334410_1_alg».proof.Pre_finite_inputs
import proofs.«401159_j17291538334410_1_alg».proof.Proof.Spec
import Idealize.ShloMosaic.Lib.ReduceAll

noncomputable section

namespace Cert.PreDecode

open Idealize.ShloMosaic Cert.Pre_finite_inputs

variable {F : FTy → Type} [FloatOps F] [Cert.Pre_finite_inputs.Facts]

/-- The rank-0 shape has one index. -/
instance : Subsingleton S_.Idx := ⟨fun a b => funext fun d => d.elim0⟩

/-- The pointwise `and` of two rank-0 bits is 1 exactly when both are. -/
theorem and_split {x y : IVec S_ 1} {j : S_.Idx} (e : andi x y j = 1#1) : x j = 1#1 ∧ y j = 1#1 :=
  IntOp.andi_eq_one.1 e

/-- One range test read at an element: if the `and` over the whole rectangle of `0 ≤ a` and `a < N`
    (both signed) is 1, then every entry of `a`, read signed, lies in `[0, n)`, `n` being `N` read signed. -/
theorem inRange_of_all (a : IVec S32x128 32) (N : BitVec 32) (n : Nat) (hN : N.toInt = (n : Int))
    (init : IVec S_ 1) (j : S_.Idx)
    (e : Host.reduce IntOp.andi
          (andi (cmpi .sge a (broadcastInDim S32x128 ![] Facts.bcast_S_S32x128 (constantI S_ 32 0#32)))
            (cmpi .slt a (broadcastInDim S32x128 ![] Facts.bcast_S_S32x128 (constantI S_ 32 N))))
          init Facts.reducesTo_S32x128_S_d0_1 Facts.h_S_ j = 1#1)
    (i : S32x128.Idx) : Cert.Spec.InRange n (a i) := by
  -- every element of the reduced rectangle is 1
  have hi := Host.reduce_andi_all _ init Facts.reducesTo_S32x128_S_d0_1 Facts.h_S_ j e i
  -- at the element the bit is the `and` of the two comparison bits
  have hi' : IntOp.andi (IntOp.cmpi .sge (a i) 0#32) (IntOp.cmpi .slt (a i) N) = 1#1 := hi
  obtain ⟨h0, h1⟩ := IntOp.andi_eq_one.1 hi'
  have h0' : (0#32 : BitVec 32).toInt ≤ (a i).toInt := IntOp.cmpi_sge.1 h0
  have h1' : (a i).toInt < N.toInt := IntOp.cmpi_slt.1 h1
  rw [show (0#32 : BitVec 32).toInt = 0 from by decide] at h0'
  rw [hN] at h1'
  exact ⟨h0', h1'⟩

/-- If the printed precondition is all ones, each of the five [32, 128] id arrays holds row numbers of its table. -/
theorem ranges (a0 a1 : IVec S65536 32) (a2 a3 a4 a5 a6 : IVec S32x128 32) (a7 : FVec F S30522x768 .f32)
    (a8 : FVec F S6x768 .f32) (a9 : FVec F S3x768 .f32) (a10 : FVec F S2x768 .f32) (a11 : FVec F S128x768 .f32)
    (a12 : FVec F S512x768 .f32) (a13 a14 : FVec F S768 .f32) (a15 : FVec F S768x768 .f32) (a16 : FVec F S768 .f32)
    (h : Cert.Pre_finite_inputs.fn (F := F) a0 a1 a2 a3 a4 a5 a6 a7 a8 a9 a10 a11 a12 a13 a14 a15 a16 = fun _ => 1#1) :
    (∀ i, Cert.Spec.InRange 6 (a2 i)) ∧ (∀ i, Cert.Spec.InRange 3 (a3 i)) ∧ (∀ i, Cert.Spec.InRange 2 (a4 i))
      ∧ (∀ i, Cert.Spec.InRange 128 (a5 i)) ∧ (∀ i, Cert.Spec.InRange 512 (a6 i)) := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  -- the result is ((((floats ∧ r2) ∧ r3) ∧ r4) ∧ r5) ∧ r6: peel the range tests off from the right
  obtain ⟨e, h6⟩ := and_split e
  obtain ⟨e, h5⟩ := and_split e
  obtain ⟨e, h4⟩ := and_split e
  obtain ⟨e, h3⟩ := and_split e
  obtain ⟨_, h2⟩ := and_split e
  exact ⟨inRange_of_all a2 6#32 6 (by decide) _ _ h2, inRange_of_all a3 3#32 3 (by decide) _ _ h3,
    inRange_of_all a4 2#32 2 (by decide) _ _ h4, inRange_of_all a5 128#32 128 (by decide) _ _ h5,
    inRange_of_all a6 512#32 512 (by decide) _ _ h6⟩

end Cert.PreDecode

end
-- ==== Proof.KernelPay.lean ====
/-
  The kernel body's one stored value at an element: for in-range ids it is the specification's row function of the
  loaded blocks.
-/
import proofs.«401159_j17291538334410_1_alg».proof.Proof.Gen.KernelIdeal.Skeleton
import proofs.«401159_j17291538334410_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Layout: a column of length a as an [a, 1] array, and that column spread over b lanes -/

/-- An [a] array cast to [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot word -/

/-- Equality of two words as a one-bit word, widened and read as a number: 1 when they are equal, else 0. -/
theorem onehot_word (w v : BitVec 32) :
    ((((IntOp.cmpi .eq w v).setWidth 32).toInt : ℝ) : EReal) = if w = v then 1 else 0 := by
  by_cases h : w = v
  · subst h
    simp [IntOp.cmpi]
  · have hb : (w == v) = false := beq_eq_false_iff_ne.mpr h
    simp [IntOp.cmpi, hb, h]

/-! ## A product of a [M, K] by a [K, N] array, and of a [M, K] by a [N, K] array, at an entry

The operand indices of a product at output entry `j` and contraction position `k`, axis by axis, for any dimension
numbers with one contracting axis and no batch axis; then the product into the zero splat as a sum over `Fin K`. -/

section Dot
variable {M K N : ℕ}

/-- A coordinate of an index depends on the axis only through its number. -/
theorem idx_val_congr {S : Shape} (j : S.Idx) (p q : Nat) (hp : p < S.rank) (hq : q < S.rank) (h : p = q) :
    (j ⟨p, hp⟩).val = (j ⟨q, hq⟩).val := by subst h; rfl

theorem lhs_row_0 {sr : Shape} (D : DotDims ⟨2, ![M, K]⟩ sr ⟨2, ![M, N]⟩) (hb : D.lhsBatch = []) (hn : D.lhsNonContracting = [0])
    (j : (⟨2, ![M, N]⟩ : Shape).Idx) (k : D.contr.Idx) : (D.lhsIdx j k 0).val = (j 0).val := by
  unfold DotDims.lhsIdx
  rw [dif_neg (show ¬(0 : Fin (⟨2, ![M, K]⟩ : Shape).rank) ∈ D.lhsBatch by rw [hb]; exact List.not_mem_nil),
    dif_pos (show (0 : Fin (⟨2, ![M, K]⟩ : Shape).rank) ∈ D.lhsNonContracting by rw [hn]; exact List.mem_singleton.mpr rfl)]
  simp only [Fin.val_cast]
  exact idx_val_congr j _ _ _ _ (by simp [hb, hn])

theorem lhs_row_1 {sr : Shape} (D : DotDims ⟨2, ![M, K]⟩ sr ⟨2, ![M, N]⟩) (hc : D.lhsContracting = [1])
    (j : (⟨2, ![M, N]⟩ : Shape).Idx) (k : D.contr.Idx) :
    (D.lhsIdx j k 1).val = (k ⟨0, by rw [D.rank_contr, hc]; exact Nat.one_pos⟩).val :=
  D.lhsIdx_val_of_single hc j k

/-- Right operand [K, N], contracted on its axis 0: its axis 1 reads the output's axis 1. -/
theorem rhs_plain_1 (D : DotDims ⟨2, ![M, K]⟩ ⟨2, ![K, N]⟩ ⟨2, ![M, N]⟩) (hlb : D.lhsBatch = []) (hln : D.lhsNonContracting = [0])
    (hb : D.rhsBatch = []) (hn : D.rhsNonContracting = [1])
    (j : (⟨2, ![M, N]⟩ : Shape).Idx) (k : D.contr.Idx) : (D.rhsIdx j k 1).val = (j 1).val := by
  unfold DotDims.rhsIdx
  rw [dif_neg (show ¬(1 : Fin (⟨2, ![K, N]⟩ : Shape).rank) ∈ D.rhsBatch by rw [hb]; exact List.not_mem_nil),
    dif_pos (show (1 : Fin (⟨2, ![K, N]⟩ : Shape).rank) ∈ D.rhsNonContracting by rw [hn]; exact List.mem_singleton.mpr rfl)]
  simp only [Fin.val_cast]
  exact idx_val_congr j _ _ _ _ (by simp [hlb, hln, hn])

theorem rhs_plain_0 (D : DotDims ⟨2, ![M, K]⟩ ⟨2, ![K, N]⟩ ⟨2, ![M, N]⟩) (hc : D.rhsContracting = [0])
    (j : (⟨2, ![M, N]⟩ : Shape).Idx) (k : D.contr.Idx) :
    (D.rhsIdx j k 0).val = (k ⟨0, by rw [D.rank_contr, ← D.length_contracting, hc]; exact Nat.one_pos⟩).val :=
  D.rhsIdx_val_of_single hc j k

/-- Right operand [N, K], contracted on its axis 1: its axis 0 reads the output's axis 1. -/
theorem rhs_transposed_0 (D : DotDims ⟨2, ![M, K]⟩ ⟨2, ![N, K]⟩ ⟨2, ![M, N]⟩) (hlb : D.lhsBatch = []) (hln : D.lhsNonContracting = [0])
    (hb : D.rhsBatch = []) (hn : D.rhsNonContracting = [0])
    (j : (⟨2, ![M, N]⟩ : Shape).Idx) (k : D.contr.Idx) : (D.rhsIdx j k 0).val = (j 1).val := by
  unfold DotDims.rhsIdx
  rw [dif_neg (show ¬(0 : Fin (⟨2, ![N, K]⟩ : Shape).rank) ∈ D.rhsBatch by rw [hb]; exact List.not_mem_nil),
    dif_pos (show (0 : Fin (⟨2, ![N, K]⟩ : Shape).rank) ∈ D.rhsNonContracting by rw [hn]; exact List.mem_singleton.mpr rfl)]
  simp only [Fin.val_cast]
  exact idx_val_congr j _ _ _ _ (by simp [hlb, hln, hn])

theorem rhs_transposed_1 (D : DotDims ⟨2, ![M, K]⟩ ⟨2, ![N, K]⟩ ⟨2, ![M, N]⟩) (hc : D.rhsContracting = [1])
    (j : (⟨2, ![M, N]⟩ : Shape).Idx) (k : D.contr.Idx) :
    (D.rhsIdx j k 1).val = (k ⟨0, by rw [D.rank_contr, ← D.length_contracting, hc]; exact Nat.one_pos⟩).val :=
  D.rhsIdx_val_of_single hc j k

end Dot

section DotSum
variable {M K N : ℕ} {φ₁ φ₂ : FTy}

theorem contr_rank_one {sl sr so : Shape} (D : DotDims sl sr so) {c : Fin sl.rank} (hc : D.lhsContracting = [c]) :
    D.contr.rank = 1 := by rw [D.rank_contr, hc]; rfl

theorem contr_size_one {sl sr so : Shape} (D : DotDims sl sr so) {c : Fin sl.rank} (hc : D.lhsContracting = [c]) :
    D.contr.size ⟨0, by rw [contr_rank_one D hc]; exact Nat.one_pos⟩ = sl.size c := by
  have e : ∀ (l : List (Fin sl.rank)) (h : 0 < l.length), l = [c] → sl.size l[0] = sl.size c := by
    intro l h hl; subst hl; rfl
  rw [D.size_contr 0 (by rw [hc]; exact Nat.one_pos)]
  exact e _ _ hc

/-- [M, K] by [K, N] into the zero splat: entry (p, q) is the sum over k of a(p, k) · b(k, q). -/
theorem matmul_plain_apply (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (a : FVec Ideal ⟨2, ![M, K]⟩ φ₁) (b : FVec Ideal ⟨2, ![K, N]⟩ φ₂) (p : Fin M) (q : Fin N) :
    matmul D none a b (constant (F := Ideal) ⟨2, ![M, N]⟩ .f32 0x00000000#32) (ix2 p q)
      = ∑ k : Fin K, a (ix2 p k) * b (ix2 k q) := by
  have hr := contr_rank_one D hlc
  have hs : D.contr.size ⟨0, by omega⟩ = K := contr_size_one D hlc
  refine (Ideal.matmul_constant_zero_apply D none a b (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    Shape.idx_ext₂ (lhs_row_0 D hlb hln _ _) ((lhs_row_1 D hlc _ _).trans hk)
  have er : D.rhsIdx (ix2 p q) ((contrEquiv1 D K hr hs).symm k) = ix2 k q :=
    Shape.idx_ext₂ ((rhs_plain_0 D hrc _ _).trans hk) (rhs_plain_1 D hlb hln hrb hrn _ _)
  rw [el, er]

/-- [M, K] by [N, K] into the zero splat, both contracted on their axis 1: entry (p, q) is the sum over k of
    a(p, k) · b(q, k). -/
theorem matmul_transposed_apply (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (a : FVec Ideal ⟨2, ![M, K]⟩ φ₁) (b : FVec Ideal ⟨2, ![N, K]⟩ φ₂) (p : Fin M) (q : Fin N) :
    matmul D none a b (constant (F := Ideal) ⟨2, ![M, N]⟩ .f32 0x00000000#32) (ix2 p q)
      = ∑ k : Fin K, a (ix2 p k) * b (ix2 q k) := by
  have hr := contr_rank_one D hlc
  have hs : D.contr.size ⟨0, by omega⟩ = K := contr_size_one D hlc
  refine (Ideal.matmul_constant_zero_apply D none a b (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    Shape.idx_ext₂ (lhs_row_0 D hlb hln _ _) ((lhs_row_1 D hlc _ _).trans hk)
  have er : D.rhsIdx (ix2 p q) ((contrEquiv1 D K hr hs).symm k) = ix2 q k :=
    Shape.idx_ext₂ (rhs_transposed_0 D hlb hln hrb hrn _ _) ((rhs_transposed_1 D hrc _ _).trans hk)
  rw [el, er]

end DotSum

/-! ## One-hot rows times a table -/

/-- The sum over k of [w = k] · t k is t at w, for a word w below the number of terms. -/
theorem onehot_sum {N : ℕ} (w : BitVec 32) (hw : w.toNat < N) (hN : N ≤ 2 ^ 32) (t : Fin N → EReal) :
    ∑ k : Fin N, (if w = BitVec.ofNat 32 k.val then (1 : EReal) else 0) * t k = t ⟨w.toNat, hw⟩ := by
  rw [Finset.sum_eq_single (⟨w.toNat, hw⟩ : Fin N)]
  · rw [if_pos (by simp), one_mul]
  · intro k _ hk
    rw [if_neg, zero_mul]
    intro h
    apply hk
    apply Fin.ext
    have hk32 : k.val < 2 ^ 32 := lt_of_lt_of_le k.isLt hN
    show k.val = w.toNat
    have e : w.toNat = k.val := by rw [h, BitVec.toNat_ofNat, Nat.mod_eq_of_lt hk32]
    exact e.symm
  · intro h; exact absurd (Finset.mem_univ _) h

/-- Entry (p, k) of the one-hot array of an id column: 1 when id p is the word k, else 0. -/
theorem onehot_apply {N : ℕ} (ids : IVec S512x1 32) (hb : S512x1.Broadcasts ⟨2, ![512, N]⟩)
    (hi : (⟨2, ![512, N]⟩ : Shape).Iotas .tc 32 [1]) (h32 : 1 < 32) (hbits : FTy.bits .bf16 < FTy.bits .f32) (p : Fin 512) (k : Fin N) :
    (truncf .bf16 (sitofp (F := Ideal) .f32 (extui 32 (cmpi .eq (broadcastTo ⟨2, ![512, N]⟩ ids hb) (iota .tc ⟨2, ![512, N]⟩ 32 [1] hi)) h32)) hbits
        : FVec Ideal ⟨2, ![512, N]⟩ .bf16) (ix2 p k)
      = if ids (ix2 p (0 : Fin 1)) = BitVec.ofNat 32 k.val then 1 else 0 := by
  show ((((IntOp.cmpi .eq (broadcastTo ⟨2, ![512, N]⟩ ids hb (ix2 p k)) (iota .tc ⟨2, ![512, N]⟩ 32 [1] hi (ix2 p k))).setWidth 32).toInt : ℝ) : EReal) = _
  rw [broadcastTo_a1_ab_apply ids hb p k, iota_single_apply]
  exact onehot_word _ _

/-- The one-hot array of an id column times an [N, 768] table: row p is the table's row of id p. -/
theorem embed_apply {N : ℕ} (hN0 : 0 < N) (hN : N ≤ 2 ^ 32) (D : DotDims ⟨2, ![512, N]⟩ ⟨2, ![N, 768]⟩ S512x768)
    (hlc : D.lhsContracting = [1]) (hrc : D.rhsContracting = [0]) (hln : D.lhsNonContracting = [0])
    (hrn : D.rhsNonContracting = [1]) (hlb : D.lhsBatch = []) (hrb : D.rhsBatch = [])
    (ids : IVec S512x1 32) (tab : FVec Ideal ⟨2, ![N, 768]⟩ .f32) (hb : S512x1.Broadcasts ⟨2, ![512, N]⟩)
    (hi : (⟨2, ![512, N]⟩ : Shape).Iotas .tc 32 [1]) (h32 : 1 < 32) (hbits : FTy.bits .bf16 < FTy.bits .f32)
    (p : Fin 512) (d : Fin 768) (hw : (ids (ix2 p (0 : Fin 1))).toNat < N) :
    matmul D none (truncf .bf16 (sitofp .f32 (extui 32 (cmpi .eq (broadcastTo ⟨2, ![512, N]⟩ ids hb) (iota .tc ⟨2, ![512, N]⟩ 32 [1] hi)) h32)) hbits)
        (truncf .bf16 tab hbits) (constant (F := Ideal) S512x768 .f32 0x00000000#32) (ix2 p d)
      = Cert.Spec.tabRow hN0 tab (ids (ix2 p (0 : Fin 1))) d := by
  refine (matmul_plain_apply D hlc hrc hln hrn hlb hrb _ _ p d).trans ?_
  rw [Cert.Spec.tabRow_of_lt hN0 tab _ hw d, ← onehot_sum _ hw hN (fun k => tab (ix2 k d))]
  refine Finset.sum_congr rfl fun k _ => ?_
  rw [onehot_apply]
  rfl

/-! ## The body's values at an entry -/

/-- An id vector laid out as a column reads, at (p, u), id p. -/
theorem idcol_apply (x : Vec Ideal S512 .i32) (p : Fin 512) (u : Fin 1) :
    shapeCast S512x1 (shapeCast S512 x shapeCasts_S512_S512 : IVec S512 32) shapeCasts_S512_S512x1 (ix2 p u) = x (ix1 p) := by
  rw [shapeCast_self]
  exact shapeCast_a_a1_apply x shapeCasts_S512_S512x1 p u

/-- A lane sum of a [512, 768] array at row p. -/
theorem rowSum_apply (src : FVec Ideal S512x768 .f32) (hφ : FTy.f32 = FTy.f32 ∨ FTy.f32 = FTy.bf16)
    (hacc : (0x00000000#32 : BitVec 32) = 0x00000000#32) (p : Fin 512) :
    multiReduction (F := Ideal) .add [1] S512 src 0x00000000#32 reduces_S512x768_S512 hφ hacc (ix1 p)
      = ∑ k : Fin 768, src (ix2 p k) := by
  refine (Ideal.multiReduction_add_single src 0x00000000#32 reduces_S512x768_S512 hφ hacc (ix1 p)).trans ?_
  refine Finset.sum_congr rfl fun k _ => congrArg src ?_
  funext a
  match a with
  | ⟨0, _⟩ => rfl
  | ⟨1, _⟩ => rfl

/-- A [768] vector laid out as one row and repeated over 512 rows reads, at (p, d), entry d. -/
theorem rowvec_apply (x : Vec Ideal S768 .f32) (p : Fin 512) (d : Fin 768) :
    broadcastTo S512x768 (shapeCast S1x768 x shapeCasts_S768_S1x768 : FVec Ideal S1x768 .f32) broadcasts_S1x768_S512x768 (ix2 p d)
      = x (ix1 d) := by
  rw [broadcastTo_1b_ab_apply]
  exact shapeCast_a_1a_apply x shapeCasts_S768_S1x768 0 d

/-- A [512] vector laid out as a column and repeated over 768 lanes reads, at (p, d), entry p. -/
theorem colvec_apply (x : FVec Ideal S512x1 .f32) (p : Fin 512) (d : Fin 768) :
    broadcastTo S512x768 x broadcasts_S512x1_S512x768 (ix2 p d) = x (ix2 p (0 : Fin 1)) :=
  broadcastTo_a1_ab_apply x broadcasts_S512x1_S512x768 p d

/-- The one-hot array of a [512] id vector cast to a column, times an [N, 768] table: row p is the table's row of
    id p. -/
theorem embed_col_apply {N : ℕ} (hN0 : 0 < N) (hN : N ≤ 2 ^ 32) (D : DotDims ⟨2, ![512, N]⟩ ⟨2, ![N, 768]⟩ S512x768)
    (hlc : D.lhsContracting = [1]) (hrc : D.rhsContracting = [0]) (hln : D.lhsNonContracting = [0])
    (hrn : D.rhsNonContracting = [1]) (hlb : D.lhsBatch = []) (hrb : D.rhsBatch = [])
    (x : Vec Ideal S512 .i32) (tab : FVec Ideal ⟨2, ![N, 768]⟩ .f32) (hb : S512x1.Broadcasts ⟨2, ![512, N]⟩)
    (hi : (⟨2, ![512, N]⟩ : Shape).Iotas .tc 32 [1]) (h32 : 1 < 32) (hbits : FTy.bits .bf16 < FTy.bits .f32)
    (p : Fin 512) (d : Fin 768) (hw : (x (ix1 p)).toNat < N) :
    matmul D none (truncf .bf16 (sitofp .f32 (extui 32 (cmpi .eq
          (broadcastTo ⟨2, ![512, N]⟩ (shapeCast S512x1 (shapeCast S512 x shapeCasts_S512_S512 : IVec S512 32) shapeCasts_S512_S512x1) hb)
          (iota .tc ⟨2, ![512, N]⟩ 32 [1] hi)) h32)) hbits)
        (truncf .bf16 tab hbits) (constant (F := Ideal) S512x768 .f32 0x00000000#32) (ix2 p d)
      = Cert.Spec.tabRow hN0 tab (x (ix1 p)) d := by
  have e := idcol_apply x p 0
  rw [← e]
  exact embed_apply hN0 hN D hlc hrc hln hrn hlb hrb _ tab hb hi h32 hbits p d (by rw [e]; exact hw)

/-- The pooled row plus the rows of the first three tables. -/
theorem pay2_apply (x0 : Vec Ideal S512x768 .f32) (x1 x2 x3 : Vec Ideal S512 .i32) (x6 : Vec Ideal S6x768 .f32)
    (x7 : Vec Ideal S3x768 .f32) (x8 : Vec Ideal S2x768 .f32)
    (h1 : ∀ p : Fin 512, (x1 (ix1 p)).toNat < 6) (h2 : ∀ p : Fin 512, (x2 (ix1 p)).toNat < 3)
    (h3 : ∀ p : Fin 512, (x3 (ix1 p)).toNat < 2) (p : Fin 512) (d : Fin 768) :
    k0_pay2 (F := Ideal) x0 x1 x6 x2 x7 x3 x8 (ix2 p d)
      = x0 (ix2 p d) + Cert.Spec.tabRow (by decide) x6 (x1 (ix1 p)) d + Cert.Spec.tabRow (by decide) x7 (x2 (ix1 p)) d
        + Cert.Spec.tabRow (by decide) x8 (x3 (ix1 p)) d := by
  unfold k0_pay2
  dsimp only
  rw [addf_apply, addf_apply, addf_apply, shapeCast_self,
    embed_col_apply (by decide) (by decide) dot_S512x6_S6x768_S512x768_1_0_0_1_n_n rfl rfl rfl rfl rfl rfl x1 x6
      broadcasts_S512x1_S512x6 iota_S512x6_d1_w32 natLt_1_32 bitsLt_bf16_f32 p d (h1 p),
    embed_col_apply (by decide) (by decide) dot_S512x3_S3x768_S512x768_1_0_0_1_n_n rfl rfl rfl rfl rfl rfl x2 x7
      broadcasts_S512x1_S512x3 iota_S512x3_d1_w32 natLt_1_32 bitsLt_bf16_f32 p d (h2 p),
    embed_col_apply (by decide) (by decide) dot_S512x2_S2x768_S512x768_1_0_0_1_n_n rfl rfl rfl rfl rfl rfl x3 x8
      broadcasts_S512x1_S512x2 iota_S512x2_d1_w32 natLt_1_32 bitsLt_bf16_f32 p d (h3 p)]

/-- The reciprocal square root acts entry by entry. -/
theorem rsqrt_apply {s : Shape} {φ : FTy} (a : FVec Ideal s φ) (i : s.Idx) : rsqrt a i = Ideal.rsqrt (a i) := rfl

/-- A row centred, scaled by the reciprocal square root of its variance plus the small constant, and by the gain: the
    specification's normalised row before its offset is added. -/
def scaled (x γ : Cert.Spec.Row) : Cert.Spec.Row := fun d =>
  (x d - Cert.Spec.mean x) * Ideal.rsqrt (Cert.Spec.mean (fun k => (x k - Cert.Spec.mean x) * (x k - Cert.Spec.mean x))
    + Ideal.ofBits .f32 0x3727C5AC#32) * γ d

theorem normed_eq_scaled_add (x γ β : Cert.Spec.Row) (d : Fin 768) : Cert.Spec.normed x γ β d = scaled x γ d + β d := rfl

/-- The rows of the last two tables added, then the row centred and scaled. -/
theorem pay4_apply (v40 : FVec Ideal S512x768 .f32) (x4 x5 : Vec Ideal S512 .i32) (x9 : Vec Ideal S128x768 .f32)
    (x10 : Vec Ideal S512x768 .f32) (x11 : Vec Ideal S768 .f32)
    (h4 : ∀ p : Fin 512, (x4 (ix1 p)).toNat < 128) (h5 : ∀ p : Fin 512, (x5 (ix1 p)).toNat < 512) (p : Fin 512) (d : Fin 768) :
    k0_pay4 (F := Ideal) v40 (k0_pay3 x4) x9 x5 x10 x11 (ix2 p d)
      = scaled (fun k => v40 (ix2 p k) + Cert.Spec.tabRow (by decide) x9 (x4 (ix1 p)) k
          + Cert.Spec.tabRow (by decide) x10 (x5 (ix1 p)) k) (fun k => x11 (ix1 k)) d := by
  have E4 := fun k => embed_col_apply (by decide) (by decide) dot_S512x128_S128x768_S512x768_1_0_0_1_n_n rfl rfl rfl rfl rfl rfl x4 x9
    broadcasts_S512x1_S512x128 iota_S512x128_d1_w32 natLt_1_32 bitsLt_bf16_f32 p k (h4 p)
  have E5 := fun k => embed_col_apply (by decide) (by decide) dot_S512x512_S512x768_S512x768_1_0_0_1_n_n rfl rfl rfl rfl rfl rfl x5 x10
    broadcasts_S512x1_S512x512 iota_S512x512_d1_w32 natLt_1_32 bitsLt_bf16_f32 p k (h5 p)
  unfold k0_pay4 k0_pay3
  dsimp only
  simp only [mulf_apply, subf_apply, addf_apply, divf_apply, rsqrt_apply, broadcast_apply, colvec_apply, rowvec_apply,
    shapeCast_a_a1_apply, rowSum_apply _ _ _ p, E4, E5]
  rfl

/-- The offset added, the product with the weights (each output column contracts the row with one row of the weights),
    and the output offset added. -/
theorem pay1_apply (v88 : FVec Ideal S512x768 .f32) (x12 : Vec Ideal S768 .f32) (x13 : Vec Ideal S768x768 .f32)
    (x14 : Vec Ideal S768 .f32) (p : Fin 512) (q : Fin 768) :
    k0_pay1 (F := Ideal) v88 x12 x13 x14 (ix2 p q)
      = (∑ k : Fin 768, (v88 (ix2 p k) + x12 (ix1 k)) * x13 (ix2 q k)) + x14 (ix1 q) := by
  unfold k0_pay1
  rw [addf_apply, rowvec_apply, matmul_transposed_apply dot_S512x768_S768x768_S512x768_1_1_0_0_n_n rfl rfl rfl rfl rfl rfl]
  refine congrArg (· + x14 (ix1 q)) (Finset.sum_congr rfl fun k _ => ?_)
  rw [truncf_apply, truncf_apply, addf_apply, rowvec_apply]

/-- Entry (p, q) of the stored block, from the blocks the body loads: the pooled rows `x0`, the five id vectors
    `x1 … x5`, the five tables `x6 … x10`, gain `x11`, offset `x12`, weights `x13`, output offset `x14`. -/
theorem pay_apply (x0 : Vec Ideal S512x768 .f32) (x1 x2 x3 x4 x5 : Vec Ideal S512 .i32) (x6 : Vec Ideal S6x768 .f32)
    (x7 : Vec Ideal S3x768 .f32) (x8 : Vec Ideal S2x768 .f32) (x9 : Vec Ideal S128x768 .f32) (x10 : Vec Ideal S512x768 .f32)
    (x11 x12 : Vec Ideal S768 .f32) (x13 : Vec Ideal S768x768 .f32) (x14 : Vec Ideal S768 .f32)
    (h1 : ∀ p : Fin 512, (x1 (ix1 p)).toNat < 6) (h2 : ∀ p : Fin 512, (x2 (ix1 p)).toNat < 3)
    (h3 : ∀ p : Fin 512, (x3 (ix1 p)).toNat < 2) (h4 : ∀ p : Fin 512, (x4 (ix1 p)).toNat < 128)
    (h5 : ∀ p : Fin 512, (x5 (ix1 p)).toNat < 512) (p : Fin 512) (q : Fin 768) :
    k0_pay1 (F := Ideal) (k0_pay4 (k0_pay2 x0 x1 x6 x2 x7 x3 x8) (k0_pay3 x4) x9 x5 x10 x11) x12 x13 x14 (ix2 p q)
      = Cert.Spec.rowOut
          (Cert.Spec.enrich (fun d => x0 (ix2 p d)) (Cert.Spec.tabRow (by decide) x6 (x1 (ix1 p)))
            (Cert.Spec.tabRow (by decide) x7 (x2 (ix1 p))) (Cert.Spec.tabRow (by decide) x8 (x3 (ix1 p)))
            (Cert.Spec.tabRow (by decide) x9 (x4 (ix1 p))) (Cert.Spec.tabRow (by decide) x10 (x5 (ix1 p))))
          (fun d => x11 (ix1 d)) (fun d => x12 (ix1 d)) (fun e d => x13 (ix2 e d)) (fun e => x14 (ix1 e)) q := by
  -- the six rows added left to right are the specification's enriched row
  have hr : (fun k => k0_pay2 (F := Ideal) x0 x1 x6 x2 x7 x3 x8 (ix2 p k) + Cert.Spec.tabRow (by decide) x9 (x4 (ix1 p)) k
        + Cert.Spec.tabRow (by decide) x10 (x5 (ix1 p)) k)
      = Cert.Spec.enrich (fun d => x0 (ix2 p d)) (Cert.Spec.tabRow (by decide) x6 (x1 (ix1 p)))
          (Cert.Spec.tabRow (by decide) x7 (x2 (ix1 p))) (Cert.Spec.tabRow (by decide) x8 (x3 (ix1 p)))
          (Cert.Spec.tabRow (by decide) x9 (x4 (ix1 p))) (Cert.Spec.tabRow (by decide) x10 (x5 (ix1 p))) := by
    funext k
    rw [pay2_apply x0 x1 x2 x3 x6 x7 x8 h1 h2 h3 p k]
    rfl
  rw [pay1_apply]
  unfold Cert.Spec.rowOut Cert.Spec.proj
  refine congrArg (· + x14 (ix1 q)) (Finset.sum_congr rfl fun k _ => ?_)
  rw [pay4_apply _ x4 x5 x9 x10 x11 h4 h5 p k, hr, normed_eq_scaled_add]

end Cert.KernelIdeal.Pay

end
-- ==== Proof.KernelBlocks.lean ====
/-
  From the blocks the eight grid points write back to the whole [4096, 768] output array.
-/
import proofs.«401159_j17291538334410_1_alg».proof.Proof.Gen.KernelIdeal.Frame
import proofs.«401159_j17291538334410_1_alg».proof.Proof.Spec
import proofs.«401159_j17291538334410_1_alg».proof.Proof.KernelPay
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

theorem off2 : (![0, 0] : Fin 2 → Nat) = fun _ => 0 := funext fun a => by fin_cases a <;> rfl
theorem off1 : (![0] : Fin 1 → Nat) = fun _ => 0 := funext fun a => by fin_cases a <;> rfl

/-- The printed index maps over the grid: the row-blocked windows sit at block row `t`, column block 0; the
    whole-array windows at block 0. -/
theorem idx_facts : ∀ t : Fin cfg0.N,
    (win0_0.index t (0 : Fin 2) = t.val ∧ win0_0.index t (1 : Fin 2) = 0)
    ∧ win0_1.index t (0 : Fin 1) = t.val
    ∧ win0_2.index t (0 : Fin 1) = t.val
    ∧ win0_3.index t (0 : Fin 1) = t.val
    ∧ win0_4.index t (0 : Fin 1) = t.val
    ∧ win0_5.index t (0 : Fin 1) = t.val
    ∧ (win0_15.index t (0 : Fin 2) = t.val ∧ win0_15.index t (1 : Fin 2) = 0) :=
  (by decide +kernel : ∀ t : Fin grid0.N, _)

theorem idx_whole : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ win0_11.index t (0 : Fin 1) = 0
    ∧ win0_12.index t (0 : Fin 1) = 0
    ∧ (win0_13.index t (0 : Fin 2) = 0 ∧ win0_13.index t (1 : Fin 2) = 0)
    ∧ win0_14.index t (0 : Fin 1) = 0 :=
  (by decide +kernel : ∀ t : Fin grid0.N, _)

/-- Row `p` of block `t` is row `512 t + p` of the array. -/
def rowAt (t : Fin cfg0.N) (p : Fin 512) : Fin 4096 :=
  ⟨t.val * 512 + p.val, by have h : t.val < grid0.N := t.isLt; rw [N_0] at h; have := p.isLt; omega⟩

theorem blk0_apply (c : Dev nD) (t : Fin cfg0.N) (p : Fin 512) (d : Fin 768) :
    (iblk m c 0 t : Vec Ideal S512x768 .f32) (ix2 p d) = (V m c main_v18 : S4096x768.Idx → EReal) (ix2 (rowAt t p) d) := by
  obtain ⟨⟨e0, e1⟩, -⟩ := idx_facts t
  unfold iblk
  rw [View.read_apply]
  show V m c main_v18 _ = V m c main_v18 _
  refine congrArg _ ?_
  funext a
  apply Fin.ext
  match a with
  | ⟨0, _⟩ => show win0_0.index t (0 : Fin 2) * 512 + 1 * p.val = t.val * 512 + p.val; omega
  | ⟨1, _⟩ => show win0_0.index t (1 : Fin 2) * 768 + 1 * d.val = d.val; omega

/-- Entry `p` of block `t` of the id vector of window 1 is entry `512 t + p` of the vector. -/
theorem blk1_apply (c : Dev nD) (t : Fin cfg0.N) (p : Fin 512) :
    (iblk m c 1 t : Vec Ideal S512 .i32) (ix1 p) = (V m c main_v19 : S4096.Idx → BitVec 32) (ix1 (rowAt t p)) := by
  obtain ⟨-, e, -⟩ := idx_facts t
  unfold iblk
  rw [View.read_apply]
  show V m c main_v19 _ = V m c main_v19 _
  refine congrArg _ ?_
  funext a
  apply Fin.ext
  match a with
  | ⟨0, _⟩ => show win0_1.index t (0 : Fin 1) * 512 + 1 * p.val = t.val * 512 + p.val; omega

/-- Entry `p` of block `t` of the id vector of window 2 is entry `512 t + p` of the vector. -/
theorem blk2_apply (c : Dev nD) (t : Fin cfg0.N) (p : Fin 512) :
    (iblk m c 2 t : Vec Ideal S512 .i32) (ix1 p) = (V m c main_v20 : S4096.Idx → BitVec 32) (ix1 (rowAt t p)) := by
  obtain ⟨-, -, e, -⟩ := idx_facts t
  unfold iblk
  rw [View.read_apply]
  show V m c main_v20 _ = V m c main_v20 _
  refine congrArg _ ?_
  funext a
  apply Fin.ext
  match a with
  | ⟨0, _⟩ => show win0_2.index t (0 : Fin 1) * 512 + 1 * p.val = t.val * 512 + p.val; omega

/-- Entry `p` of block `t` of the id vector of window 3 is entry `512 t + p` of the vector. -/
theorem blk3_apply (c : Dev nD) (t : Fin cfg0.N) (p : Fin 512) :
    (iblk m c 3 t : Vec Ideal S512 .i32) (ix1 p) = (V m c main_v21 : S4096.Idx → BitVec 32) (ix1 (rowAt t p)) := by
  obtain ⟨-, -, -, e, -⟩ := idx_facts t
  unfold iblk
  rw [View.read_apply]
  show V m c main_v21 _ = V m c main_v21 _
  refine congrArg _ ?_
  funext a
  apply Fin.ext
  match a with
  | ⟨0, _⟩ => show win0_3.index t (0 : Fin 1) * 512 + 1 * p.val = t.val * 512 + p.val; omega

/-- Entry `p` of block `t` of the id vector of window 4 is entry `512 t + p` of the vector. -/
theorem blk4_apply (c : Dev nD) (t : Fin cfg0.N) (p : Fin 512) :
    (iblk m c 4 t : Vec Ideal S512 .i32) (ix1 p) = (V m c main_v22 : S4096.Idx → BitVec 32) (ix1 (rowAt t p)) := by
  obtain ⟨-, -, -, -, e, -⟩ := idx_facts t
  unfold iblk
  rw [View.read_apply]
  show V m c main_v22 _ = V m c main_v22 _
  refine congrArg _ ?_
  funext a
  apply Fin.ext
  match a with
  | ⟨0, _⟩ => show win0_4.index t (0 : Fin 1) * 512 + 1 * p.val = t.val * 512 + p.val; omega

/-- Entry `p` of block `t` of the id vector of window 5 is entry `512 t + p` of the vector. -/
theorem blk5_apply (c : Dev nD) (t : Fin cfg0.N) (p : Fin 512) :
    (iblk m c 5 t : Vec Ideal S512 .i32) (ix1 p) = (V m c main_v23 : S4096.Idx → BitVec 32) (ix1 (rowAt t p)) := by
  obtain ⟨-, -, -, -, -, e, -⟩ := idx_facts t
  unfold iblk
  rw [View.read_apply]
  show V m c main_v23 _ = V m c main_v23 _
  refine congrArg _ ?_
  funext a
  apply Fin.ext
  match a with
  | ⟨0, _⟩ => show win0_5.index t (0 : Fin 1) * 512 + 1 * p.val = t.val * 512 + p.val; omega

/-- Window 6's one block is its whole array. -/
theorem blk6_eq (c : Dev nD) (t : Fin cfg0.N) :
    (iblk m c 6 t : Vec Ideal S6x768 .f32) = (V m c main_arg8 : S6x768.Idx → EReal) := by
  obtain ⟨⟨e0, e1⟩, -⟩ := idx_whole t
  funext y
  unfold iblk
  rw [View.read_apply]
  show V m c main_arg8 _ = V m c main_arg8 _
  refine congrArg _ ?_
  funext a
  apply Fin.ext
  match a with
  | ⟨0, _⟩ => show win0_6.index t (0 : Fin 2) * 6 + 1 * (y 0).val = (y 0).val; omega
  | ⟨1, _⟩ => show win0_6.index t (1 : Fin 2) * 768 + 1 * (y 1).val = (y 1).val; omega

/-- Window 7's one block is its whole array. -/
theorem blk7_eq (c : Dev nD) (t : Fin cfg0.N) :
    (iblk m c 7 t : Vec Ideal S3x768 .f32) = (V m c main_arg9 : S3x768.Idx → EReal) := by
  obtain ⟨-, ⟨e0, e1⟩, -⟩ := idx_whole t
  funext y
  unfold iblk
  rw [View.read_apply]
  show V m c main_arg9 _ = V m c main_arg9 _
  refine congrArg _ ?_
  funext a
  apply Fin.ext
  match a with
  | ⟨0, _⟩ => show win0_7.index t (0 : Fin 2) * 3 + 1 * (y 0).val = (y 0).val; omega
  | ⟨1, _⟩ => show win0_7.index t (1 : Fin 2) * 768 + 1 * (y 1).val = (y 1).val; omega

/-- Window 8's one block is its whole array. -/
theorem blk8_eq (c : Dev nD) (t : Fin cfg0.N) :
    (iblk m c 8 t : Vec Ideal S2x768 .f32) = (V m c main_arg10 : S2x768.Idx → EReal) := by
  obtain ⟨-, -, ⟨e0, e1⟩, -⟩ := idx_whole t
  funext y
  unfold iblk
  rw [View.read_apply]
  show V m c main_arg10 _ = V m c main_arg10 _
  refine congrArg _ ?_
  funext a
  apply Fin.ext
  match a with
  | ⟨0, _⟩ => show win0_8.index t (0 : Fin 2) * 2 + 1 * (y 0).val = (y 0).val; omega
  | ⟨1, _⟩ => show win0_8.index t (1 : Fin 2) * 768 + 1 * (y 1).val = (y 1).val; omega

/-- Window 9's one block is its whole array. -/
theorem blk9_eq (c : Dev nD) (t : Fin cfg0.N) :
    (iblk m c 9 t : Vec Ideal S128x768 .f32) = (V m c main_arg11 : S128x768.Idx → EReal) := by
  obtain ⟨-, -, -, ⟨e0, e1⟩, -⟩ := idx_whole t
  funext y
  unfold iblk
  rw [View.read_apply]
  show V m c main_arg11 _ = V m c main_arg11 _
  refine congrArg _ ?_
  funext a
  apply Fin.ext
  match a with
  | ⟨0, _⟩ => show win0_9.index t (0 : Fin 2) * 128 + 1 * (y 0).val = (y 0).val; omega
  | ⟨1, _⟩ => show win0_9.index t (1 : Fin 2) * 768 + 1 * (y 1).val = (y 1).val; omega

/-- Window 10's one block is its whole array. -/
theorem blk10_eq (c : Dev nD) (t : Fin cfg0.N) :
    (iblk m c 10 t : Vec Ideal S512x768 .f32) = (V m c main_arg12 : S512x768.Idx → EReal) := by
  obtain ⟨-, -, -, -, ⟨e0, e1⟩, -⟩ := idx_whole t
  funext y
  unfold iblk
  rw [View.read_apply]
  show V m c main_arg12 _ = V m c main_arg12 _
  refine congrArg _ ?_
  funext a
  apply Fin.ext
  match a with
  | ⟨0, _⟩ => show win0_10.index t (0 : Fin 2) * 512 + 1 * (y 0).val = (y 0).val; omega
  | ⟨1, _⟩ => show win0_10.index t (1 : Fin 2) * 768 + 1 * (y 1).val = (y 1).val; omega

/-- Window 13's one block is its whole array. -/
theorem blk13_eq (c : Dev nD) (t : Fin cfg0.N) :
    (iblk m c 13 t : Vec Ideal S768x768 .f32) = (V m c main_arg15 : S768x768.Idx → EReal) := by
  obtain ⟨-, -, -, -, -, -, -, ⟨e0, e1⟩, -⟩ := idx_whole t
  funext y
  unfold iblk
  rw [View.read_apply]
  show V m c main_arg15 _ = V m c main_arg15 _
  refine congrArg _ ?_
  funext a
  apply Fin.ext
  match a with
  | ⟨0, _⟩ => show win0_13.index t (0 : Fin 2) * 768 + 1 * (y 0).val = (y 0).val; omega
  | ⟨1, _⟩ => show win0_13.index t (1 : Fin 2) * 768 + 1 * (y 1).val = (y 1).val; omega

/-- Window 11's one block is its whole array. -/
theorem blk11_eq (c : Dev nD) (t : Fin cfg0.N) :
    (iblk m c 11 t : Vec Ideal S768 .f32) = (V m c main_arg13 : S768.Idx → EReal) := by
  obtain ⟨-, -, -, -, -, e0, -⟩ := idx_whole t
  funext y
  unfold iblk
  rw [View.read_apply]
  show V m c main_arg13 _ = V m c main_arg13 _
  refine congrArg _ ?_
  funext a
  apply Fin.ext
  match a with
  | ⟨0, _⟩ => show win0_11.index t (0 : Fin 1) * 768 + 1 * (y 0).val = (y 0).val; omega

/-- Window 12's one block is its whole array. -/
theorem blk12_eq (c : Dev nD) (t : Fin cfg0.N) :
    (iblk m c 12 t : Vec Ideal S768 .f32) = (V m c main_arg14 : S768.Idx → EReal) := by
  obtain ⟨-, -, -, -, -, -, e0, -⟩ := idx_whole t
  funext y
  unfold iblk
  rw [View.read_apply]
  show V m c main_arg14 _ = V m c main_arg14 _
  refine congrArg _ ?_
  funext a
  apply Fin.ext
  match a with
  | ⟨0, _⟩ => show win0_12.index t (0 : Fin 1) * 768 + 1 * (y 0).val = (y 0).val; omega

/-- Window 14's one block is its whole array. -/
theorem blk14_eq (c : Dev nD) (t : Fin cfg0.N) :
    (iblk m c 14 t : Vec Ideal S768 .f32) = (V m c main_arg16 : S768.Idx → EReal) := by
  obtain ⟨-, -, -, -, -, -, -, -, e0⟩ := idx_whole t
  funext y
  unfold iblk
  rw [View.read_apply]
  show V m c main_arg16 _ = V m c main_arg16 _
  refine congrArg _ ?_
  funext a
  apply Fin.ext
  match a with
  | ⟨0, _⟩ => show win0_14.index t (0 : Fin 1) * 768 + 1 * (y 0).val = (y 0).val; omega

/-- The specification's row at sentence `r`, from a block's rows: when row `p` of each row-blocked block is row `r`
    of its array and each table block is its table, the row function of the blocks is `outAt` of the arrays. -/
theorem outAt_of_blocks (base : S4096x768.Idx → EReal) (f1 f2 f3 f4 f5 : S4096.Idx → BitVec 32)
    (t1 : S6x768.Idx → EReal) (t2 : S3x768.Idx → EReal) (t3 : S2x768.Idx → EReal) (t4 : S128x768.Idx → EReal)
    (t5 : S512x768.Idx → EReal) (γ β : S768.Idx → EReal) (w : S768x768.Idx → EReal) (b : S768.Idx → EReal)
    (x0 : Vec Ideal S512x768 .f32) (x1 x2 x3 x4 x5 : Vec Ideal S512 .i32) (x6 : Vec Ideal S6x768 .f32)
    (x7 : Vec Ideal S3x768 .f32) (x8 : Vec Ideal S2x768 .f32) (x9 : Vec Ideal S128x768 .f32) (x10 : Vec Ideal S512x768 .f32)
    (x11 x12 : Vec Ideal S768 .f32) (x13 : Vec Ideal S768x768 .f32) (x14 : Vec Ideal S768 .f32)
    (r : Fin 4096) (p : Fin 512) (q : Fin 768)
    (e0 : ∀ d : Fin 768, x0 (ix2 p d) = base (ix2 r d))
    (e1 : x1 (ix1 p) = f1 (ix1 r)) (e2 : x2 (ix1 p) = f2 (ix1 r)) (e3 : x3 (ix1 p) = f3 (ix1 r))
    (e4 : x4 (ix1 p) = f4 (ix1 r)) (e5 : x5 (ix1 p) = f5 (ix1 r))
    (e6 : x6 = t1) (e7 : x7 = t2) (e8 : x8 = t3) (e9 : x9 = t4) (e10 : x10 = t5)
    (e11 : x11 = γ) (e12 : x12 = β) (e13 : x13 = w) (e14 : x14 = b) :
    Cert.Spec.rowOut
        (Cert.Spec.enrich (fun d => x0 (ix2 p d)) (Cert.Spec.tabRow (by decide) x6 (x1 (ix1 p)))
          (Cert.Spec.tabRow (by decide) x7 (x2 (ix1 p))) (Cert.Spec.tabRow (by decide) x8 (x3 (ix1 p)))
          (Cert.Spec.tabRow (by decide) x9 (x4 (ix1 p))) (Cert.Spec.tabRow (by decide) x10 (x5 (ix1 p))))
        (fun d => x11 (ix1 d)) (fun d => x12 (ix1 d)) (fun e d => x13 (ix2 e d)) (fun e => x14 (ix1 e)) q
      = Cert.Spec.outAt base f1 f2 f3 f4 f5 t1 t2 t3 t4 t5 γ β w b r q := by
  subst e6 e7 e8 e9 e10 e11 e12 e13 e14
  unfold Cert.Spec.outAt
  rw [funext e0, e1, e2, e3, e4, e5]

/-- Entry `(p, q)` of the output's block `t` sits at `(512 t + p, q)` of the output array. -/
theorem out_emb (t : Fin cfg0.N) (p : Fin 512) (q : Fin 768) :
    (((cfg0.win 15).blk t).view.emb (ix2 p q) : S4096x768.Idx) = ix2 (rowAt t p) q := by
  obtain ⟨-, -, -, -, -, -, e0, e1⟩ := idx_facts t
  funext a
  apply Fin.ext
  match a with
  | ⟨0, _⟩ => show win0_15.index t (0 : Fin 2) * 512 + 1 * p.val = t.val * 512 + p.val; omega
  | ⟨1, _⟩ => show win0_15.index t (1 : Fin 2) * 768 + 1 * q.val = q.val; omega

/-- What point `t` writes back is block `t` of the specification's array of the arrays the region finds. -/
theorem flushed_eq (c : Dev nD)
    (h1 : ∀ r : Fin 4096, ((V m c main_v19 : S4096.Idx → BitVec 32) (ix1 r)).toNat < 6)
    (h2 : ∀ r : Fin 4096, ((V m c main_v20 : S4096.Idx → BitVec 32) (ix1 r)).toNat < 3)
    (h3 : ∀ r : Fin 4096, ((V m c main_v21 : S4096.Idx → BitVec 32) (ix1 r)).toNat < 2)
    (h4 : ∀ r : Fin 4096, ((V m c main_v22 : S4096.Idx → BitVec 32) (ix1 r)).toNat < 128)
    (h5 : ∀ r : Fin 4096, ((V m c main_v23 : S4096.Idx → BitVec 32) (ix1 r)).toNat < 512)
    (t : Fin cfg0.N) :
    (dats m 0 c).flushed 15 t = ((cfg0.win 15).blk t).view.read (Elt Ideal) (Cert.Spec.Gflat (V m c main_v18) (V m c main_v19) (V m c main_v20) (V m c main_v21) (V m c main_v22) (V m c main_v23)
      (V m c main_arg8) (V m c main_arg9) (V m c main_arg10) (V m c main_arg11) (V m c main_arg12)
      (V m c main_arg13) (V m c main_arg14) (V m c main_arg15) (V m c main_arg16)) := by
  show (cfg0.win 15).cut (grid0.coords t) ((dats m 0 c).after 15 t) = _
  rw [after0_15]
  unfold out0_15
  rw [View.canon_unit_zero off2]
  simp only [View.ld_unit_zero (S := S512x768) off2, View.ld_unit_zero (S := S512) off1, View.ld_unit_zero (S := S6x768) off2,
    View.ld_unit_zero (S := S3x768) off2, View.ld_unit_zero (S := S2x768) off2, View.ld_unit_zero (S := S128x768) off2,
    View.ld_unit_zero (S := S768) off1, View.ld_unit_zero (S := S768x768) off2]
  funext j
  obtain ⟨p, q, rfl⟩ : ∃ (p : Fin 512) (q : Fin 768), j = ix2 p q := ⟨j 0, j 1, eq_ix2 j⟩
  refine (Pay.pay_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (fun p' => lt_of_eq_of_lt (congrArg BitVec.toNat (blk1_apply m c t p')) (h1 (rowAt t p')))
    (fun p' => lt_of_eq_of_lt (congrArg BitVec.toNat (blk2_apply m c t p')) (h2 (rowAt t p')))
    (fun p' => lt_of_eq_of_lt (congrArg BitVec.toNat (blk3_apply m c t p')) (h3 (rowAt t p')))
    (fun p' => lt_of_eq_of_lt (congrArg BitVec.toNat (blk4_apply m c t p')) (h4 (rowAt t p')))
    (fun p' => lt_of_eq_of_lt (congrArg BitVec.toNat (blk5_apply m c t p')) (h5 (rowAt t p')))
    p q).trans ?_
  rw [View.read_apply]
  show _ = Cert.Spec.Gflat (V m c main_v18) (V m c main_v19) (V m c main_v20) (V m c main_v21) (V m c main_v22) (V m c main_v23)
      (V m c main_arg8) (V m c main_arg9) (V m c main_arg10) (V m c main_arg11) (V m c main_arg12)
      (V m c main_arg13) (V m c main_arg14) (V m c main_arg15) (V m c main_arg16) (((cfg0.win 15).blk t).view.emb (ix2 p q))
  rw [out_emb t p q, Cert.Spec.Gflat_ix2]
  exact outAt_of_blocks (V m c main_v18) (V m c main_v19) (V m c main_v20) (V m c main_v21) (V m c main_v22) (V m c main_v23)
      (V m c main_arg8) (V m c main_arg9) (V m c main_arg10) (V m c main_arg11) (V m c main_arg12)
      (V m c main_arg13) (V m c main_arg14) (V m c main_arg15) (V m c main_arg16)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (rowAt t p) p q
    (blk0_apply m c t p) (blk1_apply m c t p) (blk2_apply m c t p) (blk3_apply m c t p) (blk4_apply m c t p) (blk5_apply m c t p)
    (blk6_eq m c t) (blk7_eq m c t) (blk8_eq m c t) (blk9_eq m c t) (blk10_eq m c t) (blk11_eq m c t) (blk12_eq m c t)
    (blk13_eq m c t) (blk14_eq m c t)

/-- An index of the output array is in point `t`'s block iff each coordinate is in the block's range on its axis. -/
theorem mem_blk (t : Fin cfg0.N) (i : S4096x768.Idx) :
    i ∈ ((cfg0.win 15).blk t).view.set ↔ ∀ a : Fin 2, win0_15.index t a * S512x768.size a ≤ (i a).val ∧ (i a).val < win0_15.index t a * S512x768.size a + S512x768.size a := by
  show i ∈ ((View.whole main_v24).slice (win0_15.rect t)).set ↔ _
  rw [View.set_slice_whole, Rect.mem_set_unit]
  exact Iff.rfl

/-- Every entry of the output array is written back by some point: row `r` by point `r / 512`. -/
theorem cover (i : S4096x768.Idx) :
    ∃ t : Fin cfg0.N, (cfg0.win 15).flush t = true ∧ i ∈ ((cfg0.win 15).blk t).view.set := by
  have hi0 : (i 0).val < 4096 := (i 0).isLt
  have hi1 : (i 1).val < 768 := (i 1).isLt
  have ht : (i 0).val / 512 < grid0.N := by rw [N_0]; omega
  obtain ⟨-, -, -, -, -, -, e0, e1⟩ := idx_facts ⟨(i 0).val / 512, ht⟩
  have e0' : win0_15.index ⟨(i 0).val / 512, ht⟩ (0 : Fin 2) = (i 0).val / 512 := e0
  refine ⟨⟨(i 0).val / 512, ht⟩, flush0_15 _, ?_⟩
  rw [mem_blk]
  intro a
  match a with
  | ⟨0, _⟩ => show win0_15.index ⟨(i 0).val / 512, ht⟩ (0 : Fin 2) * 512 ≤ (i 0).val ∧ (i 0).val < win0_15.index ⟨(i 0).val / 512, ht⟩ (0 : Fin 2) * 512 + 512; omega
  | ⟨1, _⟩ => show win0_15.index ⟨(i 0).val / 512, ht⟩ (1 : Fin 2) * 768 ≤ (i 1).val ∧ (i 1).val < win0_15.index ⟨(i 0).val / 512, ht⟩ (1 : Fin 2) * 768 + 768; omega

/-- The output array after the run, when every flat id is a row number of its table. -/
theorem final (c : Dev nD)
    (h1 : ∀ r : Fin 4096, ((V m c main_v19 : S4096.Idx → BitVec 32) (ix1 r)).toNat < 6)
    (h2 : ∀ r : Fin 4096, ((V m c main_v20 : S4096.Idx → BitVec 32) (ix1 r)).toNat < 3)
    (h3 : ∀ r : Fin 4096, ((V m c main_v21 : S4096.Idx → BitVec 32) (ix1 r)).toNat < 2)
    (h4 : ∀ r : Fin 4096, ((V m c main_v22 : S4096.Idx → BitVec 32) (ix1 r)).toNat < 128)
    (h5 : ∀ r : Fin 4096, ((V m c main_v23 : S4096.Idx → BitVec 32) (ix1 r)).toNat < 512) :
    (dats m 0 c).arrAt 15 cfg0.N
      = Cert.Spec.Gflat (V m c main_v18) (V m c main_v19) (V m c main_v20) (V m c main_v21) (V m c main_v22) (V m c main_v23)
          (V m c main_arg8) (V m c main_arg9) (V m c main_arg10) (V m c main_arg11) (V m c main_arg12)
          (V m c main_arg13) (V m c main_arg14) (V m c main_arg15) (V m c main_arg16) :=
  (dats m 0 c).arrAt_eq_of_cover 15 (Cert.Spec.Gflat (V m c main_v18) (V m c main_v19) (V m c main_v20) (V m c main_v21) (V m c main_v22) (V m c main_v23)
      (V m c main_arg8) (V m c main_arg9) (V m c main_arg10) (V m c main_arg11) (V m c main_arg12)
      (V m c main_arg13) (V m c main_arg14) (V m c main_arg15) (V m c main_arg16))
    (fun t _ => flushed_eq m c h1 h2 h3 h4 h5 t) cover

end Cert.KernelIdeal.Blocks

end
-- ==== Proof.KernelHost.lean ====
/-
  The host operations around the kernel region: what the arrays hold when the region is entered, and what the
  operations after it make of the region's output array.
-/
import proofs.«401159_j17291538334410_1_alg».proof.Proof.Gen.KernelIdeal.Frame
import proofs.«401159_j17291538334410_1_alg».proof.Proof.Spec
import Idealize.ShloMosaic.Lib.Pipeline.Value
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.ShloMosaic.ValueIdx
open Idealize.SL.Sem

/-- The pooled token rows: the token table gathered at the (wrapped) token ids, summed per segment, divided by the
    segment's count (at least one). One name for the whole chain; it is never opened. -/
def baseK (x0 x1 : IVec S65536 32) (x7 : FVec Ideal S30522x768 .f32) : FVec Ideal S4096x768 .f32 :=
  Host.divf (F := Ideal)
    (Host.scatterAdd (F := Ideal) scatter_S4096x768_S65536x1_S65536x768_1_0_0_1
      (broadcastInDim S4096x768 ![] bcast_S_S4096x768 (constant (F := Ideal) S_ .f32 0x00000000#32))
      (broadcastInDim S65536x1 ![0] bcast_S65536_S65536x1_0 x1)
      (Host.gather gather_S30522x768_S65536x1_S65536x768_1_0_n_n_0_1_1768 x7
        (broadcastInDim S65536x1 ![0] bcast_S65536_S65536x1_0
          (select (cmpi .slt x0 (broadcastInDim S65536 ![] bcast_S_S65536 (constantI S_ 32 0#32)))
            (addi x0 (broadcastInDim S65536 ![] bcast_S_S65536 (constantI S_ 32 30522#32))) x0))))
    (broadcastInDim S4096x768 ![0, 1] bcast_S4096x1_S4096x768_0_1
      (broadcastInDim S4096x1 ![0] bcast_S4096_S4096x1_0
        (maximumf (F := Ideal)
          (Host.scatterAdd (F := Ideal) scatter_S4096_S65536x1_S65536_n_0_0_1
            (broadcastInDim S4096 ![] bcast_S_S4096 (constant (F := Ideal) S_ .f32 0x00000000#32))
            (broadcastInDim S65536x1 ![0] bcast_S65536_S65536x1_0 x1)
            (broadcastInDim S65536 ![] bcast_S_S65536 (constant (F := Ideal) S_ .f32 0x3F800000#32)))
          (broadcastInDim S4096 ![] bcast_S_S4096 (constant (F := Ideal) S_ .f32 0x3F800000#32)))))

/-- A [32, 128] array of words re-laid as [4096] is the array read row-major: entry `r` of the result has row-major
    position `r`, and so has entry `(r / 128, r % 128)` of the operand, since `r / 128 * 128 + r % 128 = r`. -/
theorem shapeCast_eq_flat (x : S32x128.Idx → BitVec 32) (h : S32x128.ShapeCasts S4096) :
    shapeCast S4096 x h = Cert.Spec.flat x := by
  funext j
  unfold Cert.Spec.flat
  refine shapeCast_apply x h j _ ?_
  rw [Shape.rowMajor_val_two, Shape.rowMajor_val_one]
  have hj : (j 0).val < 4096 := (j 0).isLt
  show (j 0).val / 128 * 128 + (j 0).val % 128 = (j 0).val
  omega

variable (m : (ℓ : Loc nD τ sig) → Buf (Elt Ideal) ℓ)

/-- The region's first operand is the pooled token rows of the launch arguments. -/
theorem V_v18 (c : Dev nD) :
    (V m c main_v18 : S4096x768.Idx → EReal)
      = baseK (m ((c : Thread nD τ).loc main_arg0)) (m ((c : Thread nD τ).loc main_arg1)) (m ((c : Thread nD τ).loc main_arg7)) := by
  -- the contents when the region is entered are the fold of the operations before it over the launch contents; read at
  -- the quotient's buffer, each operation's result is its function of its operands' contents, and the composed term is
  -- the one `baseK` names
  show StableHlo.after hostOps0 (fun b => m (c, b)) (Proc.devRef .tc main_v18) = _
  after_results_simp
  unfold baseK
  rfl

/-- The five id operands are the [32, 128] id arguments read row-major. -/
theorem V_v19 (c : Dev nD) : (V m c main_v19 : S4096.Idx → BitVec 32) = Cert.Spec.flat (m ((c : Thread nD τ).loc main_arg2)) := by
  show StableHlo.after hostOps0 (fun b => m (c, b)) (Proc.devRef .tc main_v19) = _
  after_results
  exact shapeCast_eq_flat _ _
theorem V_v20 (c : Dev nD) : (V m c main_v20 : S4096.Idx → BitVec 32) = Cert.Spec.flat (m ((c : Thread nD τ).loc main_arg3)) := by
  show StableHlo.after hostOps0 (fun b => m (c, b)) (Proc.devRef .tc main_v20) = _
  after_results
  exact shapeCast_eq_flat _ _
theorem V_v21 (c : Dev nD) : (V m c main_v21 : S4096.Idx → BitVec 32) = Cert.Spec.flat (m ((c : Thread nD τ).loc main_arg4)) := by
  show StableHlo.after hostOps0 (fun b => m (c, b)) (Proc.devRef .tc main_v21) = _
  after_results
  exact shapeCast_eq_flat _ _
theorem V_v22 (c : Dev nD) : (V m c main_v22 : S4096.Idx → BitVec 32) = Cert.Spec.flat (m ((c : Thread nD τ).loc main_arg5)) := by
  show StableHlo.after hostOps0 (fun b => m (c, b)) (Proc.devRef .tc main_v22) = _
  after_results
  exact shapeCast_eq_flat _ _
theorem V_v23 (c : Dev nD) : (V m c main_v23 : S4096.Idx → BitVec 32) = Cert.Spec.flat (m ((c : Thread nD τ).loc main_arg6)) := by
  show StableHlo.after hostOps0 (fun b => m (c, b)) (Proc.devRef .tc main_v23) = _
  after_results
  exact shapeCast_eq_flat _ _

/-- After the region: the first result is the output array re-laid as [32, 128, 768]. -/
theorem tail_v25 (c : Dev nD) :
    Pipeline.afterTail₀ cfgs (dats m) 0 (V0 m) [hostOps1] c main_v25
      = shapeCast S32x128x768 ((dats m 0 c).arrAt 15 cfg0.N) shapeCasts_S4096x768_S32x128x768 := by
  -- the first operation after the region re-lays the last window's array, which the region left at its final contents;
  -- the two later operations write other buffers
  unfold Pipeline.afterTail₀
  show StableHlo.after hostOps1 _ (Proc.devRef .tc main_v25) = _
  after_results
  exact congrArg (fun a => shapeCast S32x128x768 a shapeCasts_S4096x768_S32x128x768)
    (Pipeline.withArrays_arr spec0 launch0.win.arr_inj c _ _ 15)

/-- After the region: the second result is the all-false mask. -/
theorem tail_v26 (c : Dev nD) :
    Pipeline.afterTail₀ cfgs (dats m) 0 (V0 m) [hostOps1] c main_v26
      = broadcastInDim S32x128 ![] bcast_S_S32x128 (constantI S_ 1 0#1) := by
  -- a constant broadcast: it reads no array
  unfold Pipeline.afterTail₀
  show StableHlo.after hostOps1 _ (Proc.devRef .tc main_v26) = _
  after_results

/-- The [4096, 768] array of outputs re-laid as [32, 128, 768] is the specification's [32, 128, 768] array. -/
theorem reshape_Gflat (base : S4096x768.Idx → EReal) (i1 i2 i3 i4 i5 : S32x128.Idx → BitVec 32)
    (t1 : S6x768.Idx → EReal) (t2 : S3x768.Idx → EReal) (t3 : S2x768.Idx → EReal) (t4 : S128x768.Idx → EReal)
    (t5 : S512x768.Idx → EReal) (γ β : S768.Idx → EReal) (w : S768x768.Idx → EReal) (b : S768.Idx → EReal) :
    shapeCast S32x128x768
        (Cert.Spec.Gflat base (Cert.Spec.flat i1) (Cert.Spec.flat i2) (Cert.Spec.flat i3) (Cert.Spec.flat i4) (Cert.Spec.flat i5)
          t1 t2 t3 t4 t5 γ β w b) shapeCasts_S4096x768_S32x128x768
      = Cert.Spec.G base i1 i2 i3 i4 i5 t1 t2 t3 t4 t5 γ β w b := by
  -- entry (p, s, e) of the re-laid array has row-major position (p * 128 + s) * 768 + e, the position of entry
  -- (p * 128 + s, e) of the [4096, 768] array; both sides are then the output for sentence p * 128 + s, column e
  funext i
  obtain ⟨p, s, e, rfl⟩ : ∃ (p : Fin 32) (s : Fin 128) (e : Fin 768), i = ix3 p s e := ⟨i 0, i 1, i 2, eq_ix3 i⟩
  rw [Cert.Spec.G_ix3]
  refine (shapeCast_apply _ shapeCasts_S4096x768_S32x128x768 (ix3 p s e) (ix2 (Cert.Spec.rowOf p s) e) ?_).trans ?_
  · rw [Shape.rowMajor_val_two, Shape.rowMajor_val_three]
    rfl
  · exact Cert.Spec.Gflat_ix2 ..

end Cert.KernelIdeal.HostSide

end
-- ==== Proof.KernelRun.lean ====
/-
  The idealized kernel program's run with its two results named: the first is the specification's [32, 128, 768] array of
  the launch arguments (the output array of the eight grid points re-laid), the second the all-false mask.
-/
import proofs.«401159_j17291538334410_1_alg».proof.Defs
import proofs.«401159_j17291538334410_1_alg».proof.Proof.Gen.KernelIdeal.Frame
import proofs.«401159_j17291538334410_1_alg».proof.Proof.Gen.Pre_finite_inputs
import proofs.«401159_j17291538334410_1_alg».proof.Proof.Spec
import proofs.«401159_j17291538334410_1_alg».proof.Proof.PreDecode
import proofs.«401159_j17291538334410_1_alg».proof.Proof.KernelBlocks
import proofs.«401159_j17291538334410_1_alg».proof.Proof.KernelHost

set_option maxRecDepth 16384

noncomputable section

namespace Cert.KernelIdeal.RunValue

open Cert.KernelIdeal Cert.KernelIdeal.Gen Cert.KernelIdeal.HostSide Idealize.ShloMosaic Idealize.ShloMosaic.TcCoe Idealize.ShloMosaic.ValueIdx
open Idealize.SL.Sem

variable (m : (ℓ : Loc nD τ sig) → Buf (Elt Ideal) ℓ) (ρ : Dev nD → PrngReg)

/-- The first result: the specification at the launch arguments, the pooled token rows as the host chain computes them. -/
def out (c : Dev nD) : S32x128x768.Idx → EReal :=
  Cert.Spec.G (baseK (m ((c.tc : Thread nD τ).loc main_arg0)) (m ((c.tc : Thread nD τ).loc main_arg1)) (m ((c.tc : Thread nD τ).loc main_arg7)))
    (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
    (m ((c.tc : Thread nD τ).loc main_arg13)) (m ((c.tc : Thread nD τ).loc main_arg14)) (m ((c.tc : Thread nD τ).loc main_arg15)) (m ((c.tc : Thread nD τ).loc main_arg16))

/-- The array of outputs depends on its arguments only through their values. -/
theorem Gflat_congr {base base' : S4096x768.Idx → EReal} {f1 f1' f2 f2' f3 f3' f4 f4' f5 f5' : S4096.Idx → BitVec 32}
    {t1 t1' : S6x768.Idx → EReal} {t2 t2' : S3x768.Idx → EReal} {t3 t3' : S2x768.Idx → EReal} {t4 t4' : S128x768.Idx → EReal}
    {t5 t5' : S512x768.Idx → EReal} {γ γ' β β' : S768.Idx → EReal} {w w' : S768x768.Idx → EReal} {b b' : S768.Idx → EReal}
    (hbase : base = base') (h1 : f1 = f1') (h2 : f2 = f2') (h3 : f3 = f3') (h4 : f4 = f4') (h5 : f5 = f5')
    (ht1 : t1 = t1') (ht2 : t2 = t2') (ht3 : t3 = t3') (ht4 : t4 = t4') (ht5 : t5 = t5') (hγ : γ = γ') (hβ : β = β')
    (hw : w = w') (hb : b = b') :
    Cert.Spec.Gflat base f1 f2 f3 f4 f5 t1 t2 t3 t4 t5 γ β w b = Cert.Spec.Gflat base' f1' f2' f3' f4' f5' t1' t2' t3' t4' t5' γ' β' w' b' := by
  subst hbase h1 h2 h3 h4 h5 ht1 ht2 ht3 ht4 ht5 hγ hβ hw hb
  rfl

/-- Re-laying equal arrays gives equal arrays. -/
theorem relay_congr {x y : S4096x768.Idx → EReal} (h : x = y) :
    shapeCast S32x128x768 x shapeCasts_S4096x768_S32x128x768 = shapeCast S32x128x768 y shapeCasts_S4096x768_S32x128x768 := by
  subst h
  rfl

/-- A flat id is below its table's row count when the [32, 128] ids are in range. -/
theorem flat_lt {N : Nat} (hN : N < 2 ^ 31) (ids : S32x128.Idx → BitVec 32) (h : ∀ i, Cert.Spec.InRange N (ids i)) (r : Fin 4096) :
    (Cert.Spec.flat ids (ix1 r)).toNat < N :=
  (h _).toNat_lt hN

set_option maxHeartbeats 2000000 in
/-- Under the precondition every weakly fair execution ends with the first result at `out`, the second the all-false
    mask, and the arguments as launched. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v25) = out m c
      ∧ r.2.mem ((c.tc : Thread nD τ).loc main_v26) = broadcastInDim S32x128 ![] bcast_S_S32x128 (constantI S_ 1 0#1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine (θ_run defs _ _).mono (fun r h c => ?_) (run_main m ρ)
  obtain ⟨hr2, hr3, hr4, hr5, hr6⟩ := Cert.PreDecode.ranges _ _ _ _ _ _ _ _ _ _ _ _ _ _ _ _ _ (hpre c)
  have e19 := V_v19 m c
  have e20 := V_v20 m c
  have e21 := V_v21 m c
  have e22 := V_v22 m c
  have e23 := V_v23 m c
  have hv25 : r.2.mem ((c.tc : Thread nD τ).loc main_v25) = out m c := by
    refine ((h c).2 main_v25 (Pipeline.mem_restRefs_of main_v25 (by decide) (by decide))).trans ?_
    refine (tail_v25 m c).trans ?_
    have hf := Cert.KernelIdeal.Blocks.final m c
      (fun r => by rw [e19]; exact flat_lt (by decide) _ hr2 r)
      (fun r => by rw [e20]; exact flat_lt (by decide) _ hr3 r)
      (fun r => by rw [e21]; exact flat_lt (by decide) _ hr4 r)
      (fun r => by rw [e22]; exact flat_lt (by decide) _ hr5 r)
      (fun r => by rw [e23]; exact flat_lt (by decide) _ hr6 r)
    have hG := hf.trans (Gflat_congr (V_v18 m c) e19 e20 e21 e22 e23 (V_main_arg8 m c) (V_main_arg9 m c) (V_main_arg10 m c)
      (V_main_arg11 m c) (V_main_arg12 m c) (V_main_arg13 m c) (V_main_arg14 m c) (V_main_arg15 m c) (V_main_arg16 m c))
    exact (relay_congr hG).trans (reshape_Gflat _ _ _ _ _ _ _ _ _ _ _ _ _ _ _)
  refine ⟨hv25, ((h c).2 main_v26 (Pipeline.mem_restRefs_of main_v26 (by decide) (by decide))).trans (tail_v26 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).1 6).trans (((dats m 0 c).arrAt_in 6 rfl _).trans ((A_eq m c 6).trans (V_main_arg8 m c))),
    ((h c).1 7).trans (((dats m 0 c).arrAt_in 7 rfl _).trans ((A_eq m c 7).trans (V_main_arg9 m c))),
    ((h c).1 8).trans (((dats m 0 c).arrAt_in 8 rfl _).trans ((A_eq m c 8).trans (V_main_arg10 m c))),
    ((h c).1 9).trans (((dats m 0 c).arrAt_in 9 rfl _).trans ((A_eq m c 9).trans (V_main_arg11 m c))),
    ((h c).1 10).trans (((dats m 0 c).arrAt_in 10 rfl _).trans ((A_eq m c 10).trans (V_main_arg12 m c))),
    ((h c).1 11).trans (((dats m 0 c).arrAt_in 11 rfl _).trans ((A_eq m c 11).trans (V_main_arg13 m c))),
    ((h c).1 12).trans (((dats m 0 c).arrAt_in 12 rfl _).trans ((A_eq m c 12).trans (V_main_arg14 m c))),
    ((h c).1 13).trans (((dats m 0 c).arrAt_in 13 rfl _).trans ((A_eq m c 13).trans (V_main_arg15 m c))),
    ((h c).1 14).trans (((dats m 0 c).arrAt_in 14 rfl _).trans ((A_eq m c 14).trans (V_main_arg16 m c)))⟩

end Cert.KernelIdeal.RunValue

end
-- ==== Proof.RefValue.lean ====
/-
  The reference's result, for in-range ids, is the specification's [32, 128, 768] array of its arguments.
-/
import proofs.«401159_j17291538334410_1_alg».proof.Proof.Gen.ReferenceIdeal.Read
import proofs.«401159_j17291538334410_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Read Idealize.ShloMosaic Idealize.ShloMosaic.ValueIdx

/-! ## A row gather read at an index

A gather of an operand [N, 768] at start indices [32, 128, 1] (the index vector on axis 2), with the row axis
collapsed and the column axis the one offset axis, slices of one whole row: result element (b, s, e) is the
operand's row idx[b, s, 0], read signed and clamped into [0, N - 1], at column e. -/

section RowGather
variable {α : Type}

/-- Those dimension numbers, for a table of N rows. -/
abbrev rowDims (N : Nat)
    (wf : GatherDims.WF ⟨2, ![N, 768]⟩ ⟨3, ![32, 128, 1]⟩ ⟨3, ![32, 128, 768]⟩ [2] [0] [] [0] [] 2 ![1, 768]) :
    GatherDims ⟨2, ![N, 768]⟩ ⟨3, ![32, 128, 1]⟩ ⟨3, ![32, 128, 768]⟩ where
  offsetDims := [2]
  collapsedSliceDims := [0]
  operandBatchingDims := []
  startIndicesBatchingDims := []
  startIndexMap := [0]
  indexVectorDim := 2
  sliceSizes := ![1, 768]
  wf := wf

/-- The gather read at (b, s, e): on the row axis the clamped start index (the axis is collapsed, so no offset is
    added); on the column axis the start is 0 (the start index map does not name it) and the offset is e. -/
theorem gather_row_apply {N w : Nat} (hN : 0 < N)
    (wf : GatherDims.WF ⟨2, ![N, 768]⟩ ⟨3, ![32, 128, 1]⟩ ⟨3, ![32, 128, 768]⟩ [2] [0] [] [0] [] 2 ![1, 768])
    (tab : (⟨2, ![N, 768]⟩ : Shape).Idx → α) (idx : IVec ⟨3, ![32, 128, 1]⟩ w)
    (b : Fin 32) (s : Fin 128) (e : Fin 768) :
    Host.gather (rowDims N wf) tab idx (ix3 b s e)
      = tab (ix2 ⟨min (idx (ix3 b s ⟨0, Nat.one_pos⟩)).toInt.toNat (N - 1), by omega⟩ e) := by
  unfold Host.gather
  congr 1
  funext a
  refine Fin.ext ?_
  match a with
  | ⟨0, _⟩ =>
    show (rowDims N wf).start (ix3 b s e) idx 0 + (rowDims N wf).batchCoord (ix3 b s e) 0
        + (rowDims N wf).offCoord (ix3 b s e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N wf).startIndexMap from List.mem_singleton.mpr rfl)]
    have hsi : (rowDims N wf).siIdx (ix3 b s e) ⟨List.idxOf (0 : Fin 2) (rowDims N wf).startIndexMap,
        List.idxOf_lt_length_iff.2 (List.mem_singleton.mpr rfl)⟩ = ix3 b s ⟨0, Nat.one_pos⟩ := by
      funext c; refine Fin.ext ?_
      match c with
      | ⟨0, _⟩ => rfl
      | ⟨1, _⟩ => rfl
      | ⟨2, _⟩ => rfl
    rw [hsi]
    rfl
  | ⟨1, _⟩ =>
    show (rowDims N wf).start (ix3 b s e) idx 1 + (rowDims N wf).batchCoord (ix3 b s e) 1
        + (rowDims N wf).offCoord (ix3 b s e) 1 = _
    rw [GatherDims.batchCoord_eq_zero _ _ _ List.not_mem_nil]
    unfold GatherDims.start
    rw [dif_neg (show ¬ (1 : Fin 2) ∈ (rowDims N wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowDims N wf).sKept from (GatherDims.mem_sKept _ _).mpr
      ⟨fun h => absurd (congrArg Fin.val (List.mem_singleton.mp h)) Nat.one_ne_zero, List.not_mem_nil⟩)]
    rfl

end RowGather

/-! ## The five table lookups -/

/-- A word in range is not negative: the signed comparison with zero answers 0. -/
theorem cmpi_slt_zero {N : Nat} {w : BitVec 32} (h : Cert.Spec.InRange N w) : IntOp.cmpi .slt w 0#32 = 0#1 := by
  have hs : w.slt 0#32 = false := by
    rw [BitVec.slt_eq_decide]
    exact decide_eq_false (by rw [BitVec.toInt_zero]; exact Int.not_lt.mpr h.1)
  unfold IntOp.cmpi
  simp only [hs]
  rfl

/-- So the wrap of negative ids (add the table's height to a negative id) leaves an id in range as it is. -/
theorem wrap_eq {N : Nat} {w : BitVec 32} (h : Cert.Spec.InRange N w) (c : BitVec 32) :
    Scalar.select (IntOp.cmpi .slt w 0#32) (IntOp.addi w c) w = w := by
  rw [cmpi_slt_zero h, select_zero]

/-- A row gather at in-range ids reads the specification's table row: the clamp does nothing below N, and sentence
    (b, s)'s id is entry b * 128 + s of the flat id array. -/
theorem gather_row_inRange {N : Nat} (hN : 0 < N) (hN' : N < 2 ^ 31)
    (wf : GatherDims.WF ⟨2, ![N, 768]⟩ ⟨3, ![32, 128, 1]⟩ ⟨3, ![32, 128, 768]⟩ [2] [0] [] [0] [] 2 ![1, 768])
    (tab : (⟨2, ![N, 768]⟩ : Shape).Idx → EReal) (idx : IVec ⟨3, ![32, 128, 1]⟩ 32)
    (ids : (⟨2, ![32, 128]⟩ : Shape).Idx → BitVec 32) (hids : ∀ i, Cert.Spec.InRange N (ids i))
    (hidx : ∀ (b : Fin 32) (s : Fin 128), idx (ix3 b s ⟨0, Nat.one_pos⟩) = ids (ix2 b s))
    (b : Fin 32) (s : Fin 128) (e : Fin 768) :
    Host.gather (rowDims N wf) tab idx (ix3 b s e)
      = Cert.Spec.tabRow hN tab (Cert.Spec.flat ids (ix1 (Cert.Spec.rowOf b s))) e := by
  have hlt : (ids (ix2 b s)).toNat < N := Cert.Spec.InRange.toNat_lt (hids _) hN'
  rw [gather_row_apply hN, Cert.Spec.flat_rowOf, Cert.Spec.tabRow_of_lt hN tab _ hlt]
  congr 1
  funext a
  match a with
  | ⟨0, _⟩ =>
    refine Fin.ext ?_
    show min (idx (ix3 b s ⟨0, Nat.one_pos⟩)).toInt.toNat (N - 1) = (ids (ix2 b s)).toNat
    rw [hidx, Cert.Spec.InRange.toInt_toNat (hids _)]
    omega
  | ⟨1, _⟩ => rfl

/-- The first table's lookup: the ids, wrapped (no change in range) and given a unit axis, choose the rows. -/
theorem lookup1 (x2 : (⟨S32x128, .i32⟩ : BufTy).Contents (Elt Ideal)) (x8 : (⟨S6x768, .f32⟩ : BufTy).Contents (Elt Ideal))
    (h2 : ∀ i, Cert.Spec.InRange 6 (x2 i)) (b : Fin 32) (s : Fin 128) (e : Fin 768) :
    val_main_v26 (F := Ideal) x2 x8 (ix3 b s e)
      = Cert.Spec.tabRow (by decide) x8 (Cert.Spec.flat x2 (ix1 (Cert.Spec.rowOf b s))) e := by
  unfold val_main_v26
  refine gather_row_inRange (by decide) (by decide) _ x8 _ x2 h2 (fun b s => ?_) b s e
  rw [val_main_v25_apply, val_main_v24_apply, val_main_v21_apply, val_main_v20_apply, val_main_c_4_apply,
    val_main_v23_apply,
    show idx_main_v25 (ix3 b s ⟨0, Nat.one_pos⟩) = ix2 b s from
      funext fun a => by match a with | ⟨0, _⟩ => rfl | ⟨1, _⟩ => rfl]
  exact wrap_eq (h2 _) _

/-- The second table's lookup: the ids, wrapped (no change in range) and given a unit axis, choose the rows. -/
theorem lookup2 (x3 : (⟨S32x128, .i32⟩ : BufTy).Contents (Elt Ideal)) (x9 : (⟨S3x768, .f32⟩ : BufTy).Contents (Elt Ideal))
    (h3 : ∀ i, Cert.Spec.InRange 3 (x3 i)) (b : Fin 32) (s : Fin 128) (e : Fin 768) :
    val_main_v34 (F := Ideal) x3 x9 (ix3 b s e)
      = Cert.Spec.tabRow (by decide) x9 (Cert.Spec.flat x3 (ix1 (Cert.Spec.rowOf b s))) e := by
  unfold val_main_v34
  refine gather_row_inRange (by decide) (by decide) _ x9 _ x3 h3 (fun b s => ?_) b s e
  rw [val_main_v33_apply, val_main_v32_apply, val_main_v29_apply, val_main_v28_apply, val_main_c_6_apply,
    val_main_v31_apply,
    show idx_main_v33 (ix3 b s ⟨0, Nat.one_pos⟩) = ix2 b s from
      funext fun a => by match a with | ⟨0, _⟩ => rfl | ⟨1, _⟩ => rfl]
  exact wrap_eq (h3 _) _

/-- The third table's lookup: the ids, wrapped (no change in range) and given a unit axis, choose the rows. -/
theorem lookup3 (x4 : (⟨S32x128, .i32⟩ : BufTy).Contents (Elt Ideal)) (x10 : (⟨S2x768, .f32⟩ : BufTy).Contents (Elt Ideal))
    (h4 : ∀ i, Cert.Spec.InRange 2 (x4 i)) (b : Fin 32) (s : Fin 128) (e : Fin 768) :
    val_main_v42 (F := Ideal) x4 x10 (ix3 b s e)
      = Cert.Spec.tabRow (by decide) x10 (Cert.Spec.flat x4 (ix1 (Cert.Spec.rowOf b s))) e := by
  unfold val_main_v42
  refine gather_row_inRange (by decide) (by decide) _ x10 _ x4 h4 (fun b s => ?_) b s e
  rw [val_main_v41_apply, val_main_v40_apply, val_main_v37_apply, val_main_v36_apply, val_main_c_8_apply,
    val_main_v39_apply,
    show idx_main_v41 (ix3 b s ⟨0, Nat.one_pos⟩) = ix2 b s from
      funext fun a => by match a with | ⟨0, _⟩ => rfl | ⟨1, _⟩ => rfl]
  exact wrap_eq (h4 _) _

/-- The fourth table's lookup: the ids, wrapped (no change in range) and given a unit axis, choose the rows. -/
theorem lookup4 (x5 : (⟨S32x128, .i32⟩ : BufTy).Contents (Elt Ideal)) (x11 : (⟨S128x768, .f32⟩ : BufTy).Contents (Elt Ideal))
    (h5 : ∀ i, Cert.Spec.InRange 128 (x5 i)) (b : Fin 32) (s : Fin 128) (e : Fin 768) :
    val_main_v50 (F := Ideal) x5 x11 (ix3 b s e)
      = Cert.Spec.tabRow (by decide) x11 (Cert.Spec.flat x5 (ix1 (Cert.Spec.rowOf b s))) e := by
  unfold val_main_v50
  refine gather_row_inRange (by decide) (by decide) _ x11 _ x5 h5 (fun b s => ?_) b s e
  rw [val_main_v49_apply, val_main_v48_apply, val_main_v45_apply, val_main_v44_apply, val_main_c_10_apply,
    val_main_v47_apply,
    show idx_main_v49 (ix3 b s ⟨0, Nat.one_pos⟩) = ix2 b s from
      funext fun a => by match a with | ⟨0, _⟩ => rfl | ⟨1, _⟩ => rfl]
  exact wrap_eq (h5 _) _

/-- The fifth table's lookup: the ids, wrapped (no change in range) and given a unit axis, choose the rows. -/
theorem lookup5 (x6 : (⟨S32x128, .i32⟩ : BufTy).Contents (Elt Ideal)) (x12 : (⟨S512x768, .f32⟩ : BufTy).Contents (Elt Ideal))
    (h6 : ∀ i, Cert.Spec.InRange 512 (x6 i)) (b : Fin 32) (s : Fin 128) (e : Fin 768) :
    val_main_v58 (F := Ideal) x6 x12 (ix3 b s e)
      = Cert.Spec.tabRow (by decide) x12 (Cert.Spec.flat x6 (ix1 (Cert.Spec.rowOf b s))) e := by
  unfold val_main_v58
  refine gather_row_inRange (by decide) (by decide) _ x12 _ x6 h6 (fun b s => ?_) b s e
  rw [val_main_v57_apply, val_main_v56_apply, val_main_v53_apply, val_main_v52_apply, val_main_c_12_apply,
    val_main_v55_apply,
    show idx_main_v57 (ix3 b s ⟨0, Nat.one_pos⟩) = ix2 b s from
      funext fun a => by match a with | ⟨0, _⟩ => rfl | ⟨1, _⟩ => rfl]
  exact wrap_eq (h6 _) _

/-! ## The enriched row -/

/-- Sentence (b, s)'s enriched row: its pooled token row plus its row of each of the five tables. -/
def erow (x0 x1 : (⟨S65536, .i32⟩ : BufTy).Contents (Elt Ideal)) (x2 x3 x4 x5 x6 : (⟨S32x128, .i32⟩ : BufTy).Contents (Elt Ideal))
    (x7 : (⟨S30522x768, .f32⟩ : BufTy).Contents (Elt Ideal)) (x8 : (⟨S6x768, .f32⟩ : BufTy).Contents (Elt Ideal))
    (x9 : (⟨S3x768, .f32⟩ : BufTy).Contents (Elt Ideal)) (x10 : (⟨S2x768, .f32⟩ : BufTy).Contents (Elt Ideal))
    (x11 : (⟨S128x768, .f32⟩ : BufTy).Contents (Elt Ideal)) (x12 : (⟨S512x768, .f32⟩ : BufTy).Contents (Elt Ideal))
    (b : Fin 32) (s : Fin 128) : Cert.Spec.Row :=
  Cert.Spec.enrich (fun d => val_main_v18 (F := Ideal) x0 x1 x7 (ix2 (Cert.Spec.rowOf b s) d))
    (Cert.Spec.tabRow (by decide) x8 (Cert.Spec.flat x2 (ix1 (Cert.Spec.rowOf b s))))
    (Cert.Spec.tabRow (by decide) x9 (Cert.Spec.flat x3 (ix1 (Cert.Spec.rowOf b s))))
    (Cert.Spec.tabRow (by decide) x10 (Cert.Spec.flat x4 (ix1 (Cert.Spec.rowOf b s))))
    (Cert.Spec.tabRow (by decide) x11 (Cert.Spec.flat x5 (ix1 (Cert.Spec.rowOf b s))))
    (Cert.Spec.tabRow (by decide) x12 (Cert.Spec.flat x6 (ix1 (Cert.Spec.rowOf b s))))

/-- The reshape [4096, 768] to [32, 128, 768] reads sentence (b, s) at row b * 128 + s. -/
theorem idx19 (b : Fin 32) (s : Fin 128) (d : Fin 768) :
    idx_main_v19 (ix3 b s d) = ix2 (Cert.Spec.rowOf b s) d := by
  have hb := b.isLt; have hs := s.isLt; have hd := d.isLt
  funext a
  match a with
  | ⟨0, _⟩ => exact Fin.ext (show ((b.val * 128 + s.val) * 768 + d.val) / 768 = b.val * 128 + s.val by omega)
  | ⟨1, _⟩ => exact Fin.ext (show ((b.val * 128 + s.val) * 768 + d.val) % 768 = d.val by omega)

/-- The six-term sum is the enriched row. -/
theorem enriched (x0 x1 : (⟨S65536, .i32⟩ : BufTy).Contents (Elt Ideal)) (x2 x3 x4 x5 x6 : (⟨S32x128, .i32⟩ : BufTy).Contents (Elt Ideal))
    (x7 : (⟨S30522x768, .f32⟩ : BufTy).Contents (Elt Ideal)) (x8 : (⟨S6x768, .f32⟩ : BufTy).Contents (Elt Ideal))
    (x9 : (⟨S3x768, .f32⟩ : BufTy).Contents (Elt Ideal)) (x10 : (⟨S2x768, .f32⟩ : BufTy).Contents (Elt Ideal))
    (x11 : (⟨S128x768, .f32⟩ : BufTy).Contents (Elt Ideal)) (x12 : (⟨S512x768, .f32⟩ : BufTy).Contents (Elt Ideal))
    (h2 : ∀ i, Cert.Spec.InRange 6 (x2 i)) (h3 : ∀ i, Cert.Spec.InRange 3 (x3 i)) (h4 : ∀ i, Cert.Spec.InRange 2 (x4 i))
    (h5 : ∀ i, Cert.Spec.InRange 128 (x5 i)) (h6 : ∀ i, Cert.Spec.InRange 512 (x6 i))
    (b : Fin 32) (s : Fin 128) (d : Fin 768) :
    val_main_v59 (F := Ideal) x0 x1 x2 x3 x4 x5 x6 x7 x8 x9 x10 x11 x12 (ix3 b s d) = erow x0 x1 x2 x3 x4 x5 x6 x7 x8 x9 x10 x11 x12 b s d := by
  rw [val_main_v59_apply, val_main_v51_apply, val_main_v43_apply, val_main_v35_apply, val_main_v27_apply,
    val_main_v19_apply, idx19, lookup1 x2 x8 h2, lookup2 x3 x9 h3, lookup3 x4 x10 h4, lookup4 x5 x11 h5, lookup5 x6 x12 h6]
  simp only [Ideal.addf_def]
  rfl

/-! ## Mean, variance, the normalised row -/

/-- The row's sum over its 768 entries, divided by 768: the mean of the enriched row. -/
theorem mean_eq (x0 x1 : (⟨S65536, .i32⟩ : BufTy).Contents (Elt Ideal)) (x2 x3 x4 x5 x6 : (⟨S32x128, .i32⟩ : BufTy).Contents (Elt Ideal))
    (x7 : (⟨S30522x768, .f32⟩ : BufTy).Contents (Elt Ideal)) (x8 : (⟨S6x768, .f32⟩ : BufTy).Contents (Elt Ideal))
    (x9 : (⟨S3x768, .f32⟩ : BufTy).Contents (Elt Ideal)) (x10 : (⟨S2x768, .f32⟩ : BufTy).Contents (Elt Ideal))
    (x11 : (⟨S128x768, .f32⟩ : BufTy).Contents (Elt Ideal)) (x12 : (⟨S512x768, .f32⟩ : BufTy).Contents (Elt Ideal))
    (h2 : ∀ i, Cert.Spec.InRange 6 (x2 i)) (h3 : ∀ i, Cert.Spec.InRange 3 (x3 i)) (h4 : ∀ i, Cert.Spec.InRange 2 (x4 i))
    (h5 : ∀ i, Cert.Spec.InRange 128 (x5 i)) (h6 : ∀ i, Cert.Spec.InRange 512 (x6 i))
    (b : Fin 32) (s : Fin 128) (z : Fin 1) :
    val_main_v63 (F := Ideal) x0 x1 x2 x3 x4 x5 x6 x7 x8 x9 x10 x11 x12 (ix3 b s z) = Cert.Spec.mean (erow x0 x1 x2 x3 x4 x5 x6 x7 x8 x9 x10 x11 x12 b s) := by
  rw [val_main_v63_apply, val_main_v61_apply,
    show idx_main_v61 (ix3 b s z) = ix2 b s from funext fun a => by match a with | ⟨0, _⟩ => rfl | ⟨1, _⟩ => rfl,
    val_main_v60_apply, val_main_cst_14_apply, val_main_v62_apply, val_main_cst_15_apply]
  have hsum : ∑ k : Fin 768, val_main_v59 (F := Ideal) x0 x1 x2 x3 x4 x5 x6 x7 x8 x9 x10 x11 x12 (idx_main_v60 (ix2 b s) k)
      = ∑ k : Fin 768, erow x0 x1 x2 x3 x4 x5 x6 x7 x8 x9 x10 x11 x12 b s k :=
    Finset.sum_congr rfl fun k _ => by
      rw [show idx_main_v60 (ix2 b s) k = ix3 b s k from funext fun a => by match a with | ⟨0, _⟩ => rfl | ⟨1, _⟩ => rfl | ⟨2, _⟩ => rfl,
        enriched x0 x1 x2 x3 x4 x5 x6 x7 x8 x9 x10 x11 x12 h2 h3 h4 h5 h6]
  rw [hsum]
  simp only [Ideal.hostDivf_def, Ideal.ofBits_def, Ideal.ofBits_zero_f32, zero_add]
  rfl

/-- The mean of the squared deviations from the mean. -/
theorem var_eq (x0 x1 : (⟨S65536, .i32⟩ : BufTy).Contents (Elt Ideal)) (x2 x3 x4 x5 x6 : (⟨S32x128, .i32⟩ : BufTy).Contents (Elt Ideal))
    (x7 : (⟨S30522x768, .f32⟩ : BufTy).Contents (Elt Ideal)) (x8 : (⟨S6x768, .f32⟩ : BufTy).Contents (Elt Ideal))
    (x9 : (⟨S3x768, .f32⟩ : BufTy).Contents (Elt Ideal)) (x10 : (⟨S2x768, .f32⟩ : BufTy).Contents (Elt Ideal))
    (x11 : (⟨S128x768, .f32⟩ : BufTy).Contents (Elt Ideal)) (x12 : (⟨S512x768, .f32⟩ : BufTy).Contents (Elt Ideal))
    (h2 : ∀ i, Cert.Spec.InRange 6 (x2 i)) (h3 : ∀ i, Cert.Spec.InRange 3 (x3 i)) (h4 : ∀ i, Cert.Spec.InRange 2 (x4 i))
    (h5 : ∀ i, Cert.Spec.InRange 128 (x5 i)) (h6 : ∀ i, Cert.Spec.InRange 512 (x6 i))
    (b : Fin 32) (s : Fin 128) (z : Fin 1) :
    val_main_v70 (F := Ideal) x0 x1 x2 x3 x4 x5 x6 x7 x8 x9 x10 x11 x12 (ix3 b s z)
      = Cert.Spec.mean (fun k => (erow x0 x1 x2 x3 x4 x5 x6 x7 x8 x9 x10 x11 x12 b s k - Cert.Spec.mean (erow x0 x1 x2 x3 x4 x5 x6 x7 x8 x9 x10 x11 x12 b s)) * (erow x0 x1 x2 x3 x4 x5 x6 x7 x8 x9 x10 x11 x12 b s k - Cert.Spec.mean (erow x0 x1 x2 x3 x4 x5 x6 x7 x8 x9 x10 x11 x12 b s))) := by
  rw [val_main_v70_apply, val_main_v68_apply,
    show idx_main_v68 (ix3 b s z) = ix2 b s from funext fun a => by match a with | ⟨0, _⟩ => rfl | ⟨1, _⟩ => rfl,
    val_main_v67_apply, val_main_cst_16_apply, val_main_v69_apply, val_main_cst_17_apply]
  have hsum : ∑ k : Fin 768, val_main_v66 (F := Ideal) x0 x1 x2 x3 x4 x5 x6 x7 x8 x9 x10 x11 x12 (idx_main_v67 (ix2 b s) k)
      = ∑ k : Fin 768, (erow x0 x1 x2 x3 x4 x5 x6 x7 x8 x9 x10 x11 x12 b s k - Cert.Spec.mean (erow x0 x1 x2 x3 x4 x5 x6 x7 x8 x9 x10 x11 x12 b s)) * (erow x0 x1 x2 x3 x4 x5 x6 x7 x8 x9 x10 x11 x12 b s k - Cert.Spec.mean (erow x0 x1 x2 x3 x4 x5 x6 x7 x8 x9 x10 x11 x12 b s)) :=
    Finset.sum_congr rfl fun k _ => by
      rw [show idx_main_v67 (ix2 b s) k = ix3 b s k from funext fun a => by match a with | ⟨0, _⟩ => rfl | ⟨1, _⟩ => rfl | ⟨2, _⟩ => rfl,
        val_main_v66_apply, val_main_v65_apply, val_main_v64_apply,
        show idx_main_v64 (ix3 b s k) = ix3 b s ⟨0, Nat.one_pos⟩ from funext fun a => by match a with | ⟨0, _⟩ => rfl | ⟨1, _⟩ => rfl | ⟨2, _⟩ => rfl,
        mean_eq x0 x1 x2 x3 x4 x5 x6 x7 x8 x9 x10 x11 x12 h2 h3 h4 h5 h6, enriched x0 x1 x2 x3 x4 x5 x6 x7 x8 x9 x10 x11 x12 h2 h3 h4 h5 h6]
      simp only [Ideal.mulf_def, Ideal.subf_def]
  rw [hsum]
  simp only [Ideal.hostDivf_def, Ideal.ofBits_def, Ideal.ofBits_zero_f32, zero_add]
  rfl

/-- The deviation from the mean, scaled by the reciprocal square root of the variance plus the small constant, by the
    gain and by the offset: the normalised row. -/
theorem normed_eq (x0 x1 : (⟨S65536, .i32⟩ : BufTy).Contents (Elt Ideal)) (x2 x3 x4 x5 x6 : (⟨S32x128, .i32⟩ : BufTy).Contents (Elt Ideal))
    (x7 : (⟨S30522x768, .f32⟩ : BufTy).Contents (Elt Ideal)) (x8 : (⟨S6x768, .f32⟩ : BufTy).Contents (Elt Ideal))
    (x9 : (⟨S3x768, .f32⟩ : BufTy).Contents (Elt Ideal)) (x10 : (⟨S2x768, .f32⟩ : BufTy).Contents (Elt Ideal))
    (x11 : (⟨S128x768, .f32⟩ : BufTy).Contents (Elt Ideal)) (x12 : (⟨S512x768, .f32⟩ : BufTy).Contents (Elt Ideal))
    (x13 x14 : (⟨S768, .f32⟩ : BufTy).Contents (Elt Ideal))
    (h2 : ∀ i, Cert.Spec.InRange 6 (x2 i)) (h3 : ∀ i, Cert.Spec.InRange 3 (x3 i)) (h4 : ∀ i, Cert.Spec.InRange 2 (x4 i))
    (h5 : ∀ i, Cert.Spec.InRange 128 (x5 i)) (h6 : ∀ i, Cert.Spec.InRange 512 (x6 i))
    (b : Fin 32) (s : Fin 128) (d : Fin 768) :
    val_main_v83 (F := Ideal) x0 x1 x2 x3 x4 x5 x6 x7 x8 x9 x10 x11 x12 x13 x14 (ix3 b s d)
      = Cert.Spec.normed (erow x0 x1 x2 x3 x4 x5 x6 x7 x8 x9 x10 x11 x12 b s) (fun d => x13 (ix1 d)) (fun d => x14 (ix1 d)) d := by
  rw [val_main_v83_apply, val_main_v80_apply, val_main_v77_apply, val_main_v72_apply, val_main_v71_apply,
    show idx_main_v71 (ix3 b s d) = ix3 b s ⟨0, Nat.one_pos⟩ from funext fun a => by match a with | ⟨0, _⟩ => rfl | ⟨1, _⟩ => rfl | ⟨2, _⟩ => rfl,
    mean_eq x0 x1 x2 x3 x4 x5 x6 x7 x8 x9 x10 x11 x12 h2 h3 h4 h5 h6, enriched x0 x1 x2 x3 x4 x5 x6 x7 x8 x9 x10 x11 x12 h2 h3 h4 h5 h6,
    val_main_v76_apply,
    show idx_main_v76 (ix3 b s d) = ix3 b s ⟨0, Nat.one_pos⟩ from funext fun a => by match a with | ⟨0, _⟩ => rfl | ⟨1, _⟩ => rfl | ⟨2, _⟩ => rfl,
    val_main_v75_apply, val_main_v74_apply, var_eq x0 x1 x2 x3 x4 x5 x6 x7 x8 x9 x10 x11 x12 h2 h3 h4 h5 h6, val_main_v73_apply, val_main_cst_18_apply,
    val_main_v79_apply, val_main_v78_apply,
    show idx_main_v78 (idx_main_v79 (ix3 b s d)) = ix1 d from funext fun a => by match a with | ⟨0, _⟩ => rfl,
    val_main_v82_apply, val_main_v81_apply,
    show idx_main_v81 (idx_main_v82 (ix3 b s d)) = ix1 d from funext fun a => by match a with | ⟨0, _⟩ => rfl]
  simp only [Ideal.addf_def, Ideal.mulf_def, Ideal.subf_def, Ideal.hostUnary_rsqrt_def, Ideal.ofBits_def]
  rfl

/-! ## The projection -/

/-- The reference's last float stage is the specification, its pooled-token stage standing for the pooled rows. -/
theorem result_eq (x0 x1 : (⟨S65536, .i32⟩ : BufTy).Contents (Elt Ideal)) (x2 x3 x4 x5 x6 : (⟨S32x128, .i32⟩ : BufTy).Contents (Elt Ideal))
    (x7 : (⟨S30522x768, .f32⟩ : BufTy).Contents (Elt Ideal)) (x8 : (⟨S6x768, .f32⟩ : BufTy).Contents (Elt Ideal))
    (x9 : (⟨S3x768, .f32⟩ : BufTy).Contents (Elt Ideal)) (x10 : (⟨S2x768, .f32⟩ : BufTy).Contents (Elt Ideal))
    (x11 : (⟨S128x768, .f32⟩ : BufTy).Contents (Elt Ideal)) (x12 : (⟨S512x768, .f32⟩ : BufTy).Contents (Elt Ideal))
    (x13 x14 : (⟨S768, .f32⟩ : BufTy).Contents (Elt Ideal)) (x15 : (⟨S768x768, .f32⟩ : BufTy).Contents (Elt Ideal))
    (x16 : (⟨S768, .f32⟩ : BufTy).Contents (Elt Ideal))
    (h2 : ∀ i, Cert.Spec.InRange 6 (x2 i)) (h3 : ∀ i, Cert.Spec.InRange 3 (x3 i)) (h4 : ∀ i, Cert.Spec.InRange 2 (x4 i))
    (h5 : ∀ i, Cert.Spec.InRange 128 (x5 i)) (h6 : ∀ i, Cert.Spec.InRange 512 (x6 i)) :
    val_main_v87 (F := Ideal) x0 x1 x2 x3 x4 x5 x6 x7 x8 x9 x10 x11 x12 x13 x14 x15 x16
      = Cert.Spec.G (val_main_v18 (F := Ideal) x0 x1 x7) x2 x3 x4 x5 x6 x8 x9 x10 x11 x12 x13 x14 x15 x16 := by
  funext i
  obtain ⟨b, s, e, rfl⟩ : ∃ (b : Fin 32) (s : Fin 128) (e : Fin 768), i = ix3 b s e := ⟨i 0, i 1, i 2, eq_ix3 i⟩
  rw [Cert.Spec.G_ix3, val_main_v87_apply, val_main_v84_apply, val_main_v86_apply, val_main_v85_apply,
    show idx_main_v85 (idx_main_v86 (ix3 b s e)) = ix1 e from funext fun a => by match a with | ⟨0, _⟩ => rfl]
  have hsum : ∑ k : Fin 768, val_main_v83 (F := Ideal) x0 x1 x2 x3 x4 x5 x6 x7 x8 x9 x10 x11 x12 x13 x14 (lidx_main_v84 (ix3 b s e) k)
        * x15 (ridx_main_v84 (ix3 b s e) k)
      = ∑ k : Fin 768, Cert.Spec.normed (erow x0 x1 x2 x3 x4 x5 x6 x7 x8 x9 x10 x11 x12 b s) (fun d => x13 (ix1 d)) (fun d => x14 (ix1 d)) k * x15 (ix2 e k) :=
    Finset.sum_congr rfl fun k _ => by
      rw [show lidx_main_v84 (ix3 b s e) k = ix3 b s k from funext fun a => by match a with | ⟨0, _⟩ => rfl | ⟨1, _⟩ => rfl | ⟨2, _⟩ => rfl,
        show ridx_main_v84 (ix3 b s e) k = ix2 e k from funext fun a => by match a with | ⟨0, _⟩ => rfl | ⟨1, _⟩ => rfl,
        normed_eq x0 x1 x2 x3 x4 x5 x6 x7 x8 x9 x10 x11 x12 x13 x14 h2 h3 h4 h5 h6]
  rw [hsum]
  simp only [Ideal.addf_def]
  rfl

end Cert.ReferenceIdeal.RefValue

end
-- ==== Proof.BaseEq.lean ====
/-
  The pooled-token chain is one function in both programs: the same gather, the same two segment sums, the same
  quotient, printed twice with dimension records that differ only in the proofs they carry.
-/
import proofs.«401159_j17291538334410_1_alg».proof.Proof.KernelHost
import proofs.«401159_j17291538334410_1_alg».proof.Proof.Gen.ReferenceIdeal.Read

set_option maxRecDepth 16384

noncomputable section

namespace Cert.BaseEq

open Idealize.ShloMosaic

/-- The kernel program's pooled token rows are the reference's stage of the same name. -/
theorem base_eq (x0 x1 : IVec Cert.KernelIdeal.S65536 32) (x7 : FVec Ideal Cert.KernelIdeal.S30522x768 .f32) :
    Cert.KernelIdeal.HostSide.baseK x0 x1 x7 = Cert.ReferenceIdeal.Read.val_main_v18 (F := Ideal) x0 x1 x7 := by
  unfold Cert.KernelIdeal.HostSide.baseK Cert.ReferenceIdeal.Read.val_main_v18 Cert.ReferenceIdeal.Read.val_main_v9
    Cert.ReferenceIdeal.Read.val_main_v17 Cert.ReferenceIdeal.Read.val_main_v16 Cert.ReferenceIdeal.Read.val_main_v15
    Cert.ReferenceIdeal.Read.val_main_v13 Cert.ReferenceIdeal.Read.val_main_v14 Cert.ReferenceIdeal.Read.val_main_v12
    Cert.ReferenceIdeal.Read.val_main_v11 Cert.ReferenceIdeal.Read.val_main_v10 Cert.ReferenceIdeal.Read.val_main_cst_3
    Cert.ReferenceIdeal.Read.val_main_cst_2 Cert.ReferenceIdeal.Read.val_main_cst_1 Cert.ReferenceIdeal.Read.val_main_v8
    Cert.ReferenceIdeal.Read.val_main_v7 Cert.ReferenceIdeal.Read.val_main_cst Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_c_0 Cert.ReferenceIdeal.Read.val_main_v1
    Cert.ReferenceIdeal.Read.val_main_v0 Cert.ReferenceIdeal.Read.val_main_c
  rfl

end Cert.BaseEq

end
-- ==== Proof.lean ====
/-
  The certificate of the fused sentence-enrichment kernel against its reference, over the extended reals.

  Both programs pool token rows per sentence by the same host chain (a gather, two segment sums, a quotient), add to each
  pooled row one row of each of five small tables, normalise the row and project it through a square weight matrix. The
  kernel looks a table row up by multiplying a one-hot row (the id compared with 0 … N − 1) into the table, in blocks of
  512 sentences; the reference gathers the row. For an id that is a row number of its table the one-hot product IS that
  row (every other term of the sum is 0 times a table entry), and the two programs then apply the same arithmetic in the
  same order, a change of float format being the identity on the extended reals. The added precondition says exactly that
  the five id arrays hold row numbers of their tables; outside it the reference's lookup wraps or clamps while the
  one-hot row is empty.

  The frames of the two kernel programs are the generated frame proofs; the reference's frame is its run with the results
  dropped. The kernel's run with its results named is `Cert.KernelIdeal.RunValue.run`; the reference's result is the
  same function of the arguments by `Cert.ReferenceIdeal.RefValue.result_eq`, the pooled-token chains agreeing by
  `Cert.BaseEq.base_eq`.
-/
import proofs.«401159_j17291538334410_1_alg».proof.Defs
import proofs.«401159_j17291538334410_1_alg».proof.Proof.Gen.Kernel
import proofs.«401159_j17291538334410_1_alg».proof.Proof.Gen.Kernel.Skeleton
import proofs.«401159_j17291538334410_1_alg».proof.Proof.Gen.Kernel.Launch
import proofs.«401159_j17291538334410_1_alg».proof.Proof.Gen.Kernel.Points
import proofs.«401159_j17291538334410_1_alg».proof.Proof.Gen.Kernel.Frame
import proofs.«401159_j17291538334410_1_alg».proof.Proof.Gen.KernelIdeal
import proofs.«401159_j17291538334410_1_alg».proof.Proof.Gen.KernelIdeal.Skeleton
import proofs.«401159_j17291538334410_1_alg».proof.Proof.Gen.KernelIdeal.Launch
import proofs.«401159_j17291538334410_1_alg».proof.Proof.Gen.KernelIdeal.Points
import proofs.«401159_j17291538334410_1_alg».proof.Proof.Gen.KernelIdeal.Frame
import proofs.«401159_j17291538334410_1_alg».proof.Proof.Gen.ReferenceIdeal
import proofs.«401159_j17291538334410_1_alg».proof.Proof.Gen.ReferenceIdeal.Run
import proofs.«401159_j17291538334410_1_alg».proof.Proof.Gen.ReferenceIdeal.Read
import proofs.«401159_j17291538334410_1_alg».proof.Proof.Gen.Pre_finite_inputs
import proofs.«401159_j17291538334410_1_alg».proof.Proof.Spec
import proofs.«401159_j17291538334410_1_alg».proof.Proof.PreDecode
import proofs.«401159_j17291538334410_1_alg».proof.Proof.KernelRun
import proofs.«401159_j17291538334410_1_alg».proof.Proof.RefValue
import proofs.«401159_j17291538334410_1_alg».proof.Proof.BaseEq
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both programs end with the first result at the specification's array of
    those arguments and the second the all-false mask. -/
theorem algebraic : Cert.algebraic_KernelIdeal_ReferenceIdeal := by
  intro m ρ m' ρ' hpre hagree
  refine ⟨fun c => Cert.KernelIdeal.RunValue.out m c,
    fun c => broadcastInDim Cert.KernelIdeal.S32x128 ![] Cert.KernelIdeal.Facts₀.bcast_S_S32x128 (constantI Cert.KernelIdeal.S_ 1 0#1),
    Cert.KernelIdeal.RunValue.run m ρ hpre, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨hr2, hr3, hr4, hr5, hr6⟩ := Cert.PreDecode.ranges _ _ _ _ _ _ _ _ _ _ _ _ _ _ _ _ _ (hpre c)
    rw [Cert.ReferenceIdeal.Read.val_main_v87_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2.1, (hagree c).2.2.2.2.2.2.2.2.2.2.2.2.2.1,
      (hagree c).2.2.2.2.2.2.2.2.2.2.2.2.2.2.1, (hagree c).2.2.2.2.2.2.2.2.2.2.2.2.2.2.2.1,
      (hagree c).2.2.2.2.2.2.2.2.2.2.2.2.2.2.2.2]
    refine (Cert.ReferenceIdeal.RefValue.result_eq _ _ _ _ _ _ _ _ _ _ _ _ _ _ _ _ _ hr2 hr3 hr4 hr5 hr6).trans ?_
    unfold Cert.KernelIdeal.RunValue.out
    rw [← Cert.BaseEq.base_eq]
  · rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
